-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x1024 : Shape := ⟨2, ![2000, 1024]⟩
abbrev S512x1024 : Shape := ⟨2, ![512, 1024]⟩
abbrev S512x50x64 : Shape := ⟨3, ![512, 50, 64]⟩
abbrev S512x50 : Shape := ⟨2, ![512, 50]⟩
abbrev S3136x1024 : Shape := ⟨2, ![3136, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S2000x1024 : S_.BroadcastsInDim S2000x1024 (![] : Fin 0 → Fin S2000x1024.rank)
  reducesTo_S2000x1024_S_d0_1 : S2000x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512x50x64 : S_.BroadcastsInDim S512x50x64 (![] : Fin 0 → Fin S512x50x64.rank)
  reducesTo_S512x50x64_S_d0_1_2 : S512x50x64.ReducesTo [0, 1, 2] S_
  bcast_S_S512x50 : S_.BroadcastsInDim S512x50 (![] : Fin 0 → Fin S512x50.rank)
  reducesTo_S512x50_S_d0_1 : S512x50.ReducesTo [0, 1] S_
  bcast_S_S3136x1024 : S_.BroadcastsInDim S3136x1024 (![] : Fin 0 → Fin S3136x1024.rank)
  reducesTo_S3136x1024_S_d0_1 : S3136x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg3 : IVec S512x50 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S512x50 32 := broadcastInDim S512x50 ![] bcast_S_S512x50 main_c_14
  let main_v40 : IVec S512x50 1 := cmpi .sge main_arg3 main_v39
  let main_c_15 : IVec S_ 1 := constantI S_ 1 1#1
  let main_v41 : IVec S_ 1 := (fun x v => Host.reduce IntOp.andi x v reducesTo_S512x50_S_d0_1 h_S_) main_v40 main_c_15
  let main_v42 : IVec S_ 1 := andi main_v38 main_v41
  main_v42

def fn_part1 {F : FTy → Type} [FloatOps F] (main_arg3 : IVec S512x50 32) (main_arg5 : FVec F S3136x1024 .f32) (main_arg6 : FVec F S1024 .f32) (main_arg7 : FVec F S1024x1 .f32) (main_arg8 : FVec F S1 .f32) (main_v13 : IVec S_ 1) (main_v16 : IVec S512x50 1) : IVec S_ 1 :=
  let main_c_5 : IVec S_ 1 := constantI S_ 1 1#1
  let main_v17 : IVec S_ 1 := (fun x v => Host.reduce IntOp.andi x v reducesTo_S512x50_S_d0_1 h_S_) main_v16 main_c_5
  let main_v18 : IVec S_ 1 := andi main_v13 main_v17
  let main_v19 : FVec F S3136x1024 .f32 := Host.absf main_arg5
  let main_cst_6 : FVec F S_ .f32 := constant S_ .f32 0x7F800000#32
  let main_v20 : FVec F S3136x1024 .f32 := broadcastInDim S3136x1024 ![] bcast_S_S3136x1024 main_cst_6
  let main_v21 : IVec S3136x1024 1 := cmpf .olt main_v19 main_v20
  let main_c_7 : IVec S_ 1 := constantI S_ 1 1#1
  let main_v22 : IVec S_ 1 := (fun x v => Host.reduce IntOp.andi x v reducesTo_S3136x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg7
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg3 main_arg8 main_v33

def fn {F : FTy → Type} [FloatOps F] (main_arg0 : FVec F S2000x1024 .f32) (main_arg1 : FVec F S512x1024 .f32) (main_arg2 : FVec F S512x50x64 .f32) (main_arg3 : IVec S512x50 32) (main_arg4 : FVec F S512x50 .f32) (main_arg5 : FVec F S3136x1024 .f32) (main_arg6 : FVec F S1024 .f32) (main_arg7 : FVec F S1024x1 .f32) (main_arg8 : FVec F S1 .f32) : IVec S_ 1 :=
  let main_v0 : FVec F S2000x1024 .f32 := Host.absf main_arg0
  let main_cst : FVec F S_ .f32 := constant S_ .f32 0x7F800000#32
  let main_v1 : FVec F S2000x1024 .f32 := broadcastInDim S2000x1024 ![] bcast_S_S2000x1024 main_cst
  let main_v2 : IVec S2000x1024 1 := cmpf .olt main_v0 main_v1
  let main_c : IVec S_ 1 := constantI S_ 1 1#1
  let main_v3 : IVec S_ 1 := (fun x v => Host.reduce IntOp.andi x v reducesTo_S2000x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x50x64 .f32 := Host.absf main_arg2
  let main_cst_2 : FVec F S_ .f32 := constant S_ .f32 0x7F800000#32
  let main_v10 : FVec F S512x50x64 .f32 := broadcastInDim S512x50x64 ![] bcast_S_S512x50x64 main_cst_2
  let main_v11 : IVec S512x50x64 1 := cmpf .olt main_v9 main_v10
  let main_c_3 : IVec S_ 1 := constantI S_ 1 1#1
  let main_v12 : IVec S_ 1 := (fun x v => Host.reduce IntOp.andi x v reducesTo_S512x50x64_S_d0_1_2 h_S_) main_v11 main_c_3
  let main_v13 : IVec S_ 1 := andi main_v8 main_v12
  let main_v14 : FVec F S512x50 .f32 := Host.absf main_arg4
  let main_cst_4 : FVec F S_ .f32 := constant S_ .f32 0x7F800000#32
  let main_v15 : FVec F S512x50 .f32 := broadcastInDim S512x50 ![] bcast_S_S512x50 main_cst_4
  let main_v16 : IVec S512x50 1 := cmpf .olt main_v14 main_v15
  fn_part1 (F := F) main_arg3 main_arg5 main_arg6 main_arg7 main_arg8 main_v13 main_v16
-- ==== Kernel.lean ====
abbrev S2000x1024 : Shape := ⟨2, ![2000, 1024]⟩
abbrev S512x1024 : Shape := ⟨2, ![512, 1024]⟩
abbrev S512x50x64 : Shape := ⟨3, ![512, 50, 64]⟩
abbrev S512x50 : Shape := ⟨2, ![512, 50]⟩
abbrev S3136x1024 : Shape := ⟨2, ![3136, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S512x51 : Shape := ⟨2, ![512, 51]⟩
abbrev S16x1024 : Shape := ⟨2, ![16, 1024]⟩
abbrev S16x50 : Shape := ⟨2, ![16, 50]⟩
abbrev S16x50x64 : Shape := ⟨3, ![16, 50, 64]⟩
abbrev S16x51 : Shape := ⟨2, ![16, 51]⟩
abbrev S1x1x2000 : Shape := ⟨3, ![1, 1, 2000]⟩
abbrev S16x50x1 : Shape := ⟨3, ![16, 50, 1]⟩
abbrev S16x50x2000 : Shape := ⟨3, ![16, 50, 2000]⟩
abbrev S800x2000 : Shape := ⟨2, ![800, 2000]⟩
abbrev S800x1024 : Shape := ⟨2, ![800, 1024]⟩
abbrev S16x50x1024 : Shape := ⟨3, ![16, 50, 1024]⟩
abbrev S16x1x1024 : Shape := ⟨3, ![16, 1, 1024]⟩
abbrev S1024x1024 : Shape := ⟨2, ![1024, 1024]⟩
abbrev S64x1024 : Shape := ⟨2, ![64, 1024]⟩
abbrev S800x64 : Shape := ⟨2, ![800, 64]⟩
abbrev S1x1024 : Shape := ⟨2, ![1, 1024]⟩
abbrev S1x1x1024 : Shape := ⟨3, ![1, 1, 1024]⟩
abbrev S16x1 : Shape := ⟨2, ![16, 1]⟩

abbrev nBuf : Space → Nat
  | .hbm => 21
  | .vmem => 15
  | .smem => 0
  | _ => 0

abbrev bufTy : (tb : Table) → Fin (tcTables nBuf tb) → BufTy
  | .hbm, ⟨0, _⟩ => ⟨S2000x1024, .f32⟩
  | .hbm, ⟨1, _⟩ => ⟨S512x1024, .f32⟩
  | .hbm, ⟨2, _⟩ => ⟨S512x50x64, .f32⟩
  | .hbm, ⟨3, _⟩ => ⟨S512x50, .i32⟩
  | .hbm, ⟨4, _⟩ => ⟨S512x50, .f32⟩
  | .hbm, ⟨5, _⟩ => ⟨S3136x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S2000x1024, .bf16⟩
  | .hbm, ⟨10, _⟩ => ⟨S3136x1024, .bf16⟩
  | .hbm, ⟨11, _⟩ => ⟨S1024x1, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512x50, .i32⟩
  | .hbm, ⟨16, _⟩ => ⟨S512x50, .i32⟩
  | .hbm, ⟨17, _⟩ => ⟨S_, .i32⟩
  | .hbm, ⟨18, _⟩ => ⟨S512x50, .i32⟩
  | .hbm, ⟨19, _⟩ => ⟨S512x50, .i32⟩
  | .hbm, ⟨20, _⟩ => ⟨S512x51, .f32⟩
  | .local _ .vmem, ⟨0, _⟩ => ⟨S16x1024, .f32⟩
  | .local _ .vmem, ⟨1, _⟩ => ⟨S16x1024, .f32⟩
  | .local _ .vmem, ⟨2, _⟩ => ⟨S16x50, .i32⟩
  | .local _ .vmem, ⟨3, _⟩ => ⟨S16x50, .i32⟩
  | .local _ .vmem, ⟨4, _⟩ => ⟨S16x50x64, .f32⟩
  | .local _ .vmem, ⟨5, _⟩ => ⟨S16x50x64, .f32⟩
  | .local _ .vmem, ⟨6, _⟩ => ⟨S16x50, .f32⟩
  | .local _ .vmem, ⟨7, _⟩ => ⟨S16x50, .f32⟩
  | .local _ .vmem, ⟨8, _⟩ => ⟨S2000x1024, .bf16⟩
  | .local _ .vmem, ⟨9, _⟩ => ⟨S3136x1024, .bf16⟩
  | .local _ .vmem, ⟨10, _⟩ => ⟨S1024x1, .bf16⟩
  | .local _ .vmem, ⟨11, _⟩ => ⟨S1024, .f32⟩
  | .local _ .vmem, ⟨12, _⟩ => ⟨S1, .f32⟩
  | .local _ .vmem, ⟨13, _⟩ => ⟨S16x51, .f32⟩
  | .local _ .vmem, ⟨14, _⟩ => ⟨S16x51, .f32⟩
  | _, _ => ⟨S2000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x50 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x50x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2000x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3136x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x51 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S512x50 : S_.BroadcastsInDim S512x50 (![] : Fin 0 → Fin S512x50.rank)
  inb_S16x1024_S16x1024_0_0 : ∀ a, (![0, 0] : Fin 2 → Nat) a + S16x1024.size a ≤ S16x1024.size a
  h_S16x1024 : 0 < S16x1024.numel
  inb_S16x50_S16x50_0_0 : ∀ a, (![0, 0] : Fin 2 → Nat) a + S16x50.size a ≤ S16x50.size a
  h_S16x50 : 0 < S16x50.numel
  shapeCasts_S16x50_S16x50 : S16x50.ShapeCasts S16x50
  inb_S16x50x64_S16x50x64_0_0_0 : ∀ a, (![0, 0, 0] : Fin 3 → Nat) a + S16x50x64.size a ≤ S16x50x64.size a
  h_S16x50x64 : 0 < S16x50x64.numel
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S3136x1024_S3136x1024_0_0 : ∀ a, (![0, 0] : Fin 2 → Nat) a + S3136x1024.size a ≤ S3136x1024.size a
  h_S3136x1024 : 0 < S3136x1024.numel
  shapeCasts_S3136x1024_S3136x1024 : S3136x1024.ShapeCasts S3136x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024_S1024_0 : ∀ a, (![0] : Fin 1 → Nat) a + S1024.size a ≤ S1024.size a
  h_S1024 : 0 < S1024.numel
  inb_S1_S1_0 : ∀ a, (![0] : Fin 1 → Nat) a + S1.size a ≤ S1.size a
  h_S1 : 0 < S1.numel
  iota_S1x1x2000_d2_w32 : S1x1x2000.Iotas .tc 32 [2]
  shapeCasts_S16x50_S16x50x1 : S16x50.ShapeCasts S16x50x1
  broadcasts_S16x50x1_S16x50x2000 : S16x50x1.Broadcasts S16x50x2000
  broadcasts_S1x1x2000_S16x50x2000 : S1x1x2000.Broadcasts S16x50x2000
  natLt_1_32 : 1 < 32
  shapeCasts_S16x50x2000_S800x2000 : S16x50x2000.ShapeCasts S800x2000
  shapeCasts_S800x1024_S16x50x1024 : S800x1024.ShapeCasts S16x50x1024
  shapeCasts_S16x1024_S16x1x1024 : S16x1024.ShapeCasts S16x1x1024
  broadcasts_S16x1x1024_S16x50x1024 : S16x1x1024.Broadcasts S16x50x1024
  shapeCasts_S16x50x1024_S800x1024 : S16x50x1024.ShapeCasts S800x1024
  slices_S3136x1024_o0_0_S1024x1024 : S3136x1024.Slices ![0, 0] S1024x1024
  slices_S3136x1024_o1024_0_S1024x1024 : S3136x1024.Slices ![1024, 0] S1024x1024
  slices_S3136x1024_o2048_0_S1024x1024 : S3136x1024.Slices ![2048, 0] S1024x1024
  slices_S3136x1024_o3072_0_S64x1024 : S3136x1024.Slices ![3072, 0] S64x1024
  shapeCasts_S16x1x1024_S16x1x1024 : S16x1x1024.ShapeCasts S16x1x1024
  shapeCasts_S16x50x64_S800x64 : S16x50x64.ShapeCasts S800x64
  shapeCasts_S1024_S1x1024 : S1024.ShapeCasts S1x1024
  broadcasts_S1x1024_S800x1024 : S1x1024.Broadcasts S800x1024
  shapeCasts_S1024x1_S1024 : S1024x1.ShapeCasts S1024
  shapeCasts_S1024_S1x1x1024 : S1024.ShapeCasts S1x1x1024
  broadcasts_S1x1x1024_S16x50x1024 : S1x1x1024.Broadcasts S16x50x1024
  reduces_S16x50x1024_S16x50 : S16x50x1024.Reduces [2] S16x50
  inpos_S1_p0 : ∀ a, (![0] : Fin 1 → Nat) a < S1.size a
  concatenates_S16x1_S16x50_S16x51_d1 : Shape.Concatenates [S16x1, S16x50] S16x51 1
  inb_S16x51_S16x51_0_0 : ∀ a, (![0, 0] : Fin 2 → Nat) a + S16x51.size a ≤ S16x51.size a
  h_S16x51 : 0 < S16x51.numel
  dot_S800x2000_S2000x1024_S800x1024_1_0_0_1_n_n_wf : DotDims.WF S800x2000 S2000x1024 S800x1024 [1] [0] [0] [1] [] []
  dot_S16x1024_S1024x1024_S16x1024_1_0_0_1_n_n_wf : DotDims.WF S16x1024 S1024x1024 S16x1024 [1] [0] [0] [1] [] []
  dot_S800x1024_S1024x1024_S800x1024_1_0_0_1_n_n_wf : DotDims.WF S800x1024 S1024x1024 S800x1024 [1] [0] [0] [1] [] []
  dot_S800x64_S64x1024_S800x1024_1_0_0_1_n_n_wf : DotDims.WF S800x64 S64x1024 S800x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S512x1024.size a
  hwx0_0 : ∀ i : grid0.Coords, EltTy.bits .f32 = 32 ∨ (Rect.block (s := S512x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x50.size a ≤ S512x50.size a
  hwx0_1 : ∀ i : grid0.Coords, EltTy.bits .i32 = 32 ∨ (Rect.block (s := S512x50) S16x50.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x50x64.size a ≤ S512x50x64.size a
  hwx0_2 : ∀ i : grid0.Coords, EltTy.bits .f32 = 32 ∨ (Rect.block (s := S512x50x64) S16x50x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x50.size a ≤ S512x50.size a
  hwx0_3 : ∀ i : grid0.Coords, EltTy.bits .f32 = 32 ∨ (Rect.block (s := S512x50) S16x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2000x1024.size a ≤ S2000x1024.size a
  hwx0_4 : ∀ i : grid0.Coords, EltTy.bits .bf16 = 32 ∨ (Rect.block (s := S2000x1024) S2000x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3136x1024.size a ≤ S3136x1024.size a
  hwx0_5 : ∀ i : grid0.Coords, EltTy.bits .bf16 = 32 ∨ (Rect.block (s := S3136x1024) S3136x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .bf16 = 32 ∨ (Rect.block (s := S1024x1) S1024x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x51.size a ≤ S512x51.size a
  hwx0_9 : ∀ i : grid0.Coords, EltTy.bits .f32 = 32 ∨ (Rect.block (s := S512x51) S16x51.size (cc0_transform_9 i) (hinb0_9 i)).WholeWords (EltTy.packing .f32)

variable [Facts₀]

def dot_S800x2000_S2000x1024_S800x1024_1_0_0_1_n_n : DotDims S800x2000 S2000x1024 S800x1024 where
  lhsContracting := [1]
  rhsContracting := [0]
  lhsNonContracting := [0]
  rhsNonContracting := [1]
  lhsBatch := []
  rhsBatch := []
  wf := dot_S800x2000_S2000x1024_S800x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S800x1024_S1024x1024_S800x1024_1_0_0_1_n_n : DotDims S800x1024 S1024x1024 S800x1024 where
  lhsContracting := [1]
  rhsContracting := [0]
  lhsNonContracting := [0]
  rhsNonContracting := [1]
  lhsBatch := []
  rhsBatch := []
  wf := dot_S800x1024_S1024x1024_S800x1024_1_0_0_1_n_n_wf
def dot_S800x64_S64x1024_S800x1024_1_0_0_1_n_n : DotDims S800x64 S64x1024 S800x1024 where
  lhsContracting := [1]
  rhsContracting := [0]
  lhsNonContracting := [0]
  rhsNonContracting := [1]
  lhsBatch := []
  rhsBatch := []
  wf := dot_S800x64_S64x1024_S800x1024_1_0_0_1_n_n_wf

abbrev win0_0 : Pipeline.Window sig grid0 :=
  Pipeline.Window.ofSpec (Memref.whole main_arg1) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x50x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2000x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S3136x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S16x51.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2000x1024 : Shape := ⟨2, ![2000, 1024]⟩
abbrev S512x1024 : Shape := ⟨2, ![512, 1024]⟩
abbrev S512x50x64 : Shape := ⟨3, ![512, 50, 64]⟩
abbrev S512x50 : Shape := ⟨2, ![512, 50]⟩
abbrev S3136x1024 : Shape := ⟨2, ![3136, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S512x50x1 : Shape := ⟨3, ![512, 50, 1]⟩
abbrev S512x50x1024 : Shape := ⟨3, ![512, 50, 1024]⟩
abbrev S512x1x1024 : Shape := ⟨3, ![512, 1, 1024]⟩
abbrev S512x50x3136 : Shape := ⟨3, ![512, 50, 3136]⟩
abbrev S1x1x1024 : Shape := ⟨3, ![1, 1, 1024]⟩
abbrev S1x1x1 : Shape := ⟨3, ![1, 1, 1]⟩
abbrev S512x1 : Shape := ⟨2, ![512, 1]⟩
abbrev S512x51 : Shape := ⟨2, ![512, 51]⟩

abbrev nBuf : Space → Nat
  | .hbm => 42
  | .vmem => 0
  | .smem => 0
  | _ => 0

abbrev bufTy : (tb : Table) → Fin (tcTables nBuf tb) → BufTy
  | .hbm, ⟨0, _⟩ => ⟨S2000x1024, .f32⟩
  | .hbm, ⟨1, _⟩ => ⟨S512x1024, .f32⟩
  | .hbm, ⟨2, _⟩ => ⟨S512x50x64, .f32⟩
  | .hbm, ⟨3, _⟩ => ⟨S512x50, .i32⟩
  | .hbm, ⟨4, _⟩ => ⟨S512x50, .f32⟩
  | .hbm, ⟨5, _⟩ => ⟨S3136x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S_, .i32⟩
  | .hbm, ⟨10, _⟩ => ⟨S512x50, .i32⟩
  | .hbm, ⟨11, _⟩ => ⟨S512x50, .i1⟩
  | .hbm, ⟨12, _⟩ => ⟨S_, .i32⟩
  | .hbm, ⟨13, _⟩ => ⟨S512x50, .i32⟩
  | .hbm, ⟨14, _⟩ => ⟨S512x50, .i32⟩
  | .hbm, ⟨15, _⟩ => ⟨S512x50, .i32⟩
  | .hbm, ⟨16, _⟩ => ⟨S512x50x1, .i32⟩
  | .hbm, ⟨17, _⟩ => ⟨S512x50x1024, .f32⟩
  | .hbm, ⟨18, _⟩ => ⟨S512x1x1024, .f32⟩
  | .hbm, ⟨19, _⟩ => ⟨S512x50x1024, .f32⟩
  | .hbm, ⟨20, _⟩ => ⟨S512x50x1024, .f32⟩
  | .hbm, ⟨21, _⟩ => ⟨S512x50x3136, .f32⟩
  | .hbm, ⟨22, _⟩ => ⟨S512x50x1024, .f32⟩
  | .hbm, ⟨23, _⟩ => ⟨S1x1x1024, .f32⟩
  | .hbm, ⟨24, _⟩ => ⟨S512x50x1024, .f32⟩
  | .hbm, ⟨25, _⟩ => ⟨S512x50x1024, .f32⟩
  | .hbm, ⟨26, _⟩ => ⟨S_, .f32⟩
  | .hbm, ⟨27, _⟩ => ⟨S512x50x1024, .f32⟩
  | .hbm, ⟨28, _⟩ => ⟨S512x50x1024, .i1⟩
  | .hbm, ⟨29, _⟩ => ⟨S_, .f32⟩
  | .hbm, ⟨30, _⟩ => ⟨S512x50x1024, .f32⟩
  | .hbm, ⟨31, _⟩ => ⟨S512x50x1024, .f32⟩
  | .hbm, ⟨32, _⟩ => ⟨S512x50x1024, .f32⟩
  | .hbm, ⟨33, _⟩ => ⟨S512x50x1, .f32⟩
  | .hbm, ⟨34, _⟩ => ⟨S1x1x1, .f32⟩
  | .hbm, ⟨35, _⟩ => ⟨S512x50x1, .f32⟩
  | .hbm, ⟨36, _⟩ => ⟨S512x50x1, .f32⟩
  | .hbm, ⟨37, _⟩ => ⟨S512x50, .f32⟩
  | .hbm, ⟨38, _⟩ => ⟨S512x50, .f32⟩
  | .hbm, ⟨39, _⟩ => ⟨S_, .f32⟩
  | .hbm, ⟨40, _⟩ => ⟨S512x1, .f32⟩
  | .hbm, ⟨41, _⟩ => ⟨S512x51, .f32⟩
  | _, _ => ⟨S2000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S_S512x50 : S_.BroadcastsInDim S512x50 (![] : Fin 0 → Fin S512x50.rank)
  bcast_S512x50_S512x50x1_0_1 : S512x50.BroadcastsInDim S512x50x1 (![0, 1] : Fin 2 → Fin S512x50x1.rank)
  bcast_S512x1024_S512x1x1024_0_2 : S512x1024.BroadcastsInDim S512x1x1024 (![0, 2] : Fin 2 → Fin S512x1x1024.rank)
  bcast_S512x1x1024_S512x50x1024_0_1_2 : S512x1x1024.BroadcastsInDim S512x50x1024 (![0, 1, 2] : Fin 3 → Fin S512x50x1024.rank)
  concatenates_S512x50x1024_S512x50x1024_S512x50x1024_S512x50x64_S512x50x3136_d2 : Shape.Concatenates [S512x50x1024, S512x50x1024, S512x50x1024, S512x50x64] S512x50x3136 2
  bcast_S1024_S1x1x1024_2 : S1024.BroadcastsInDim S1x1x1024 (![2] : Fin 1 → Fin S1x1x1024.rank)
  bcast_S1x1x1024_S512x50x1024_0_1_2 : S1x1x1024.BroadcastsInDim S512x50x1024 (![0, 1, 2] : Fin 3 → Fin S512x50x1024.rank)
  bcast_S_S512x50x1024 : S_.BroadcastsInDim S512x50x1024 (![] : Fin 0 → Fin S512x50x1024.rank)
  bcast_S1_S1x1x1_2 : S1.BroadcastsInDim S1x1x1 (![2] : Fin 1 → Fin S1x1x1.rank)
  bcast_S1x1x1_S512x50x1_0_1_2 : S1x1x1.BroadcastsInDim S512x50x1 (![0, 1, 2] : Fin 3 → Fin S512x50x1.rank)
  shapeCasts_S512x50x1_S512x50 : S512x50x1.ShapeCasts S512x50
  bcast_S_S512x1 : S_.BroadcastsInDim S512x1 (![] : Fin 0 → Fin S512x1.rank)
  concatenates_S512x1_S512x50_S512x51_d1 : Shape.Concatenates [S512x1, S512x50] S512x51 1
  gather_S2000x1024_S512x50x1_S512x50x1024_2_0_n_n_0_2_11024_wf : GatherDims.WF S2000x1024 S512x50x1 S512x50x1024 [2] [0] [] [0] [] 2 ![1, 1024]
  dot_S512x50x3136_S3136x1024_S512x50x1024_2_0_01_1_n_n_wf : DotDims.WF S512x50x3136 S3136x1024 S512x50x1024 [2] [0] [0, 1] [1] [] []
  dot_S512x50x1024_S1024x1_S512x50x1_2_0_01_1_n_n_wf : DotDims.WF S512x50x1024 S1024x1 S512x50x1 [2] [0] [0, 1] [1] [] []

variable [Facts₀]

def gather_S2000x1024_S512x50x1_S512x50x1024_2_0_n_n_0_2_11024 : GatherDims S2000x1024 S512x50x1 S512x50x1024 where
  offsetDims := [2]
  collapsedSliceDims := [0]
  operandBatchingDims := []
  startIndicesBatchingDims := []
  startIndexMap := [0]
  indexVectorDim := 2
  sliceSizes := ![1, 1024]
  wf := gather_S2000x1024_S512x50x1_S512x50x1024_2_0_n_n_0_2_11024_wf
def dot_S512x50x3136_S3136x1024_S512x50x1024_2_0_01_1_n_n : DotDims S512x50x3136 S3136x1024 S512x50x1024 where
  lhsContracting := [2]
  rhsContracting := [0]
  lhsNonContracting := [0, 1]
  rhsNonContracting := [1]
  lhsBatch := []
  rhsBatch := []
  wf := dot_S512x50x3136_S3136x1024_S512x50x1024_2_0_01_1_n_n_wf
def dot_S512x50x1024_S1024x1_S512x50x1_2_0_01_1_n_n : DotDims S512x50x1024 S1024x1 S512x50x1 where
  lhsContracting := [2]
  rhsContracting := [0]
  lhsNonContracting := [0, 1]
  rhsNonContracting := [1]
  lhsBatch := []
  rhsBatch := []
  wf := dot_S512x50x1024_S1024x1_S512x50x1_2_0_01_1_n_n_wf

class Facts : Prop extends Facts₀ where

variable [Facts]
-- ==== Proof.Layouts.lean ====
/-
  The re-layings the kernel body applies, each read at an index over explicit coordinates.

  The body works on a tile of 16 mentions with 50 antecedent slots each. It flattens the (mention, slot) pairs into
  800 rows for its matrix products — pair (p, a) is row 50·p + a, row-major — and splits them back for the products
  with a mention's own row, which it lays along the slot axis through a unit axis. Nothing here depends on the element
  type. Last, a matrix product into the zero accumulator is, on the extended reals, the plain sum over the contracted
  coordinate.
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.PairScores.Lay

open Idealize.ShloMosaic Idealize.ShloMosaic.ValueIdx
open scoped BigOperators

variable {α : Type}

/-- The row of pair (mention `p` of the tile, slot `a`) among the 800 flattened pairs. -/
abbrev pairRow (p : Fin 16) (a : Fin 50) : Fin 800 := ⟨50 * p.val + a.val, by omega⟩

/-- The 800 rows split back into (mention, slot): entry (p, a, e) is row 50·p + a at column `e`. -/
theorem split_rows {N : ℕ} (x : (⟨2, ![800, N]⟩ : Shape).Idx → α)
    (h : (⟨2, ![800, N]⟩ : Shape).ShapeCasts ⟨3, ![16, 50, N]⟩) (p : Fin 16) (a : Fin 50) (e : Fin N) :
    shapeCast ⟨3, ![16, 50, N]⟩ x h (ix3 p a e) = x (ix2 (pairRow p a) e) :=
  shapeCast_apply x h _ _ (by
    rw [Shape.rowMajor_val_two, Shape.rowMajor_val_three]
    show (50 * p.val + a.val) * N + e.val = (p.val * 50 + a.val) * N + e.val
    rw [Nat.mul_comm 50 p.val])

/-- (mention, slot) flattened into 800 rows: row 50·p + a at column `e` is entry (p, a, e). -/
theorem merge_rows {N : ℕ} (x : (⟨3, ![16, 50, N]⟩ : Shape).Idx → α)
    (h : (⟨3, ![16, 50, N]⟩ : Shape).ShapeCasts ⟨2, ![800, N]⟩) (p : Fin 16) (a : Fin 50) (e : Fin N) :
    shapeCast ⟨2, ![800, N]⟩ x h (ix2 (pairRow p a) e) = x (ix3 p a e) :=
  shapeCast_apply x h _ _ (by
    rw [Shape.rowMajor_val_two, Shape.rowMajor_val_three]
    show (p.val * 50 + a.val) * N + e.val = (50 * p.val + a.val) * N + e.val
    rw [Nat.mul_comm 50 p.val])

/-- A unit slot axis put between a matrix's two axes reads the matrix. -/
theorem add_mid_unit (x : (⟨2, ![16, 1024]⟩ : Shape).Idx → α)
    (h : (⟨2, ![16, 1024]⟩ : Shape).ShapeCasts ⟨3, ![16, 1, 1024]⟩) (p : Fin 16) (u : Fin 1) (e : Fin 1024) :
    shapeCast ⟨3, ![16, 1, 1024]⟩ x h (ix3 p u e) = x (ix2 p e) :=
  shapeCast_apply x h _ _ (by
    rw [Shape.rowMajor_val_two, Shape.rowMajor_val_three]
    show p.val * 1024 + e.val = (p.val * 1 + u.val) * 1024 + e.val
    have hu : u.val = 0 := by omega
    rw [hu, Nat.mul_one, Nat.add_zero])

/-- A mention's row laid along the 50 slots: the same row at every slot. -/
theorem bcast_slots (x : (⟨3, ![16, 1, 1024]⟩ : Shape).Idx → α)
    (h : (⟨3, ![16, 1, 1024]⟩ : Shape).Broadcasts ⟨3, ![16, 50, 1024]⟩) (p : Fin 16) (a : Fin 50) (e : Fin 1024) :
    broadcastTo ⟨3, ![16, 50, 1024]⟩ x h (ix3 p a e) = x (ix3 p (0 : Fin 1) e) :=
  broadcastTo_apply x h _ _ (fun ax => by
    match ax with
    | ⟨0, _⟩ => rfl
    | ⟨1, _⟩ => rfl
    | ⟨2, _⟩ => rfl)

/-- The index words with a unit last axis added. -/
theorem add_last_unit (x : (⟨2, ![16, 50]⟩ : Shape).Idx → α)
    (h : (⟨2, ![16, 50]⟩ : Shape).ShapeCasts ⟨3, ![16, 50, 1]⟩) (p : Fin 16) (a : Fin 50) (u : Fin 1) :
    shapeCast ⟨3, ![16, 50, 1]⟩ x h (ix3 p a u) = x (ix2 p a) :=
  shapeCast_apply x h _ _ (by
    rw [Shape.rowMajor_val_two, Shape.rowMajor_val_three]
    show p.val * 50 + a.val = (p.val * 50 + a.val) * 1 + u.val
    have hu : u.val = 0 := by omega
    rw [hu, Nat.mul_one, Nat.add_zero])

/-- An index word laid along the 2000 table rows: the same word at every row. -/
theorem bcast_word (x : (⟨3, ![16, 50, 1]⟩ : Shape).Idx → α)
    (h : (⟨3, ![16, 50, 1]⟩ : Shape).Broadcasts ⟨3, ![16, 50, 2000]⟩) (p : Fin 16) (a : Fin 50) (k : Fin 2000) :
    broadcastTo ⟨3, ![16, 50, 2000]⟩ x h (ix3 p a k) = x (ix3 p a (0 : Fin 1)) :=
  broadcastTo_apply x h _ _ (fun ax => by
    match ax with
    | ⟨0, _⟩ => rfl
    | ⟨1, _⟩ => rfl
    | ⟨2, _⟩ => rfl)

/-- The table-row numbers laid along every (mention, slot) pair. -/
theorem bcast_rownum (x : (⟨3, ![1, 1, 2000]⟩ : Shape).Idx → α)
    (h : (⟨3, ![1, 1, 2000]⟩ : Shape).Broadcasts ⟨3, ![16, 50, 2000]⟩) (p : Fin 16) (a : Fin 50) (k : Fin 2000) :
    broadcastTo ⟨3, ![16, 50, 2000]⟩ x h (ix3 p a k) = x (ix3 (0 : Fin 1) (0 : Fin 1) k) :=
  broadcastTo_apply x h _ _ (fun ax => by
    match ax with
    | ⟨0, _⟩ => rfl
    | ⟨1, _⟩ => rfl
    | ⟨2, _⟩ => rfl)

/-- The row numbers themselves: the iota along the last axis is the position there. -/
theorem rownum (h : (⟨3, ![1, 1, 2000]⟩ : Shape).Iotas .tc 32 [2]) (k : Fin 2000) :
    iota .tc ⟨3, ![1, 1, 2000]⟩ 32 [2] h (ix3 (0 : Fin 1) (0 : Fin 1) k) = BitVec.ofNat 32 k.val :=
  iota_single_apply .tc ⟨3, ![1, 1, 2000]⟩ 32 2 h _

/-- `W2`'s one column as a vector. -/
theorem column_as_vector (x : (⟨2, ![1024, 1]⟩ : Shape).Idx → α)
    (h : (⟨2, ![1024, 1]⟩ : Shape).ShapeCasts ⟨1, ![1024]⟩) (k : Fin 1024) :
    shapeCast ⟨1, ![1024]⟩ x h (ix1 k) = x (ix2 k (0 : Fin 1)) :=
  shapeCast_apply x h _ _ (by
    rw [Shape.rowMajor_val_two, Shape.rowMajor_val_one]
    show k.val * 1 + 0 = k.val
    rw [Nat.mul_one, Nat.add_zero])

/-- A vector with two leading unit axes added. -/
theorem add_two_units (x : (⟨1, ![1024]⟩ : Shape).Idx → α)
    (h : (⟨1, ![1024]⟩ : Shape).ShapeCasts ⟨3, ![1, 1, 1024]⟩) (u v : Fin 1) (k : Fin 1024) :
    shapeCast ⟨3, ![1, 1, 1024]⟩ x h (ix3 u v k) = x (ix1 k) :=
  shapeCast_apply x h _ _ (by
    rw [Shape.rowMajor_val_three, Shape.rowMajor_val_one]
    show k.val = (u.val * 1 + v.val) * 1024 + k.val
    have hu : u.val = 0 := by omega
    have hv : v.val = 0 := by omega
    rw [hu, hv]
    omega)

/-- One vector laid along every (mention, slot) pair. -/
theorem bcast_pairs (x : (⟨3, ![1, 1, 1024]⟩ : Shape).Idx → α)
    (h : (⟨3, ![1, 1, 1024]⟩ : Shape).Broadcasts ⟨3, ![16, 50, 1024]⟩) (p : Fin 16) (a : Fin 50) (k : Fin 1024) :
    broadcastTo ⟨3, ![16, 50, 1024]⟩ x h (ix3 p a k) = x (ix3 (0 : Fin 1) (0 : Fin 1) k) :=
  broadcastTo_apply x h _ _ (fun ax => by
    match ax with
    | ⟨0, _⟩ => rfl
    | ⟨1, _⟩ => rfl
    | ⟨2, _⟩ => rfl)

/-- The index a sum over the last axis reads: (p, a) with the summed coordinate put back. -/
theorem lift_last (h : (⟨3, ![16, 50, 1024]⟩ : Shape).Reduces [2] ⟨2, ![16, 50]⟩) (p : Fin 16) (a : Fin 50) (k : Fin 1024) :
    h.lift (ix2 p a) k = ix3 p a k := by
  funext c
  apply Fin.ext
  match c with
  | ⟨0, _⟩ => rfl
  | ⟨1, _⟩ => rfl
  | ⟨2, _⟩ => rfl

/-- A matrix product of an m×k by a k×n matrix into the zero accumulator, read at an entry on the extended reals:
    the sum over the contracted coordinate of the products of the entries (the same sum the host's plain product is). -/
theorem matmul_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Ideal.dotGeneral_apply (DotDims.plain m k n) prec default A B (ix2 a b)]
  exact StackMember.dotGeneral_plain_apply prec A B a b

end Cert.PairScores.Lay

end
-- ==== Proof.Spec.lean ====
/-
  What both programs compute, as ONE function of the nine argument arrays, index by index, on the extended reals.

  For mention `b` (of 512) and antecedent slot `a` (of 50) let `g = table[row (idx[b, a])]` be the antecedent's
  embedding: the row of the 2000-row mention table that the index word selects, the word read as a signed integer and
  clamped into [0, 1999]. The pair's feature vector is the concatenation (m, g, m ⊙ g, pw) of the mention's embedding
  `m = mentions[b]`, of `g`, of their entrywise product and of the 64 pairwise features, 3136 entries in all. The
  hidden layer is `lrelu (feat · W1[:, h] + b1[h])`, the fine score `Σ_h hidden[h] · W2[h, 0] + b2[0]`, and the
  result row `b` is `(ε, rough[b, 0] + fine[b, 0], …, rough[b, 49] + fine[b, 49])` with `ε` the literal `1e-7`.

  The contraction with `W1` is written here already split along the four pieces of the feature vector:
  `Σ_e m[e]·W1[e,h] + Σ_e g[e]·W1[1024+e,h] + Σ_e (g[e]·m[e])·W1[2048+e,h] + Σ_p pw[p]·W1[3072+p,h]`.
  On the extended reals addition is associative and commutative and multiplication commutative, so this is the one
  sum over the 3136 features whatever the grouping (`sum_split4`); no finiteness is needed anywhere.
-/
import Mathlib.Algebra.BigOperators.Fin
import Idealize.ShloMosaic.PureOps.Ideal
import Idealize.ShloMosaic.PureOps.Ideal.Laws
import Idealize.ShloMosaic.Lib.ValueIdx

noncomputable section

namespace Cert.PairScores

open Idealize.ShloMosaic Idealize.ShloMosaic.ValueIdx
open scoped BigOperators

/-- The table row an index word selects: the word as a signed integer, clamped into [0, 1999]. -/
def row (w : BitVec 32) : Fin 2000 := ⟨min w.toInt.toNat 1999, by omega⟩

/-- The leaky rectifier with the slope literal `0.01` (as an f32 word, the same word in both programs):
    `x` where `x ≥ 0`, else `slope · x`. -/
def lrelu (x : EReal) : EReal :=
  Scalar.select (FloatOps.cmpf (F := Ideal) (φ := .f32) .oge x (Ideal.ofBits .f32 0x00000000#32)) x
    (Ideal.ofBits .f32 0x3C23D70A#32 * x)

section
variable (table : FVec Ideal ⟨2, ![2000, 1024]⟩ .f32) (mentions : FVec Ideal ⟨2, ![512, 1024]⟩ .f32)
  (pw : FVec Ideal ⟨3, ![512, 50, 64]⟩ .f32) (idx : IVec ⟨2, ![512, 50]⟩ 32) (rough : FVec Ideal ⟨2, ![512, 50]⟩ .f32)
  (W1 : FVec Ideal ⟨2, ![3136, 1024]⟩ .f32) (b1 : FVec Ideal ⟨1, ![1024]⟩ .f32) (W2 : FVec Ideal ⟨2, ![1024, 1]⟩ .f32)
  (b2 : FVec Ideal ⟨1, ![1]⟩ .f32)

/-- Entry `e` of the embedding of the antecedent in slot `a` of mention `b`. -/
def antecedent (b : Fin 512) (a : Fin 50) (e : Fin 1024) : EReal :=
  table (ix2 (row (idx (ix2 b a))) e)

/-- The hidden layer's input at unit `h`: the four partial contractions with `W1`'s row blocks, then the bias. -/
def preact (b : Fin 512) (a : Fin 50) (h : Fin 1024) : EReal :=
  ((((∑ e : Fin 1024, mentions (ix2 b e) * W1 (ix2 ⟨e.val, by omega⟩ h))
      + ∑ e : Fin 1024, antecedent table idx b a e * W1 (ix2 ⟨1024 + e.val, by omega⟩ h))
      + ∑ e : Fin 1024, (antecedent table idx b a e * mentions (ix2 b e)) * W1 (ix2 ⟨2048 + e.val, by omega⟩ h))
      + ∑ p : Fin 64, pw (ix3 b a p) * W1 (ix2 ⟨3072 + p.val, by omega⟩ h))
    + b1 (ix1 h)

/-- The fine score of the pair: the rectified hidden layer against `W2`'s one column, plus `b2`. -/
def fine (b : Fin 512) (a : Fin 50) : EReal :=
  (∑ h : Fin 1024, lrelu (preact table mentions pw idx W1 b1 b a h) * W2 (ix2 h (0 : Fin 1))) + b2 (ix1 (0 : Fin 1))

/-- The result: column 0 the literal `1e-7`, column `a + 1` the rough score plus the fine score of slot `a`. -/
def scores : (⟨2, ![512, 51]⟩ : Shape).Idx → EReal := fun j =>
  if h : (j 1).val = 0 then Ideal.ofBits .f32 0x33D6BF95#32
  else rough (ix2 ⟨(j 0).val, idx2_lt0 j⟩ ⟨(j 1).val - 1, by have := idx2_lt1 j; omega⟩)
    + fine table mentions pw idx W1 b1 W2 b2 ⟨(j 0).val, idx2_lt0 j⟩ ⟨(j 1).val - 1, by have := idx2_lt1 j; omega⟩

theorem scores_zero (b : Fin 512) :
    scores table mentions pw idx rough W1 b1 W2 b2 (ix2 b (0 : Fin 51)) = Ideal.ofBits .f32 0x33D6BF95#32 :=
  dif_pos rfl

theorem scores_succ (b : Fin 512) (a : Fin 50) :
    scores table mentions pw idx rough W1 b1 W2 b2 (ix2 b (⟨a.val + 1, by omega⟩ : Fin 51))
      = rough (ix2 b a) + fine table mentions pw idx W1 b1 W2 b2 b a := by
  unfold scores
  rw [dif_neg (by show ¬ a.val + 1 = 0; omega)]
  rfl

end

/-! ## Two facts about finite sums -/

variable {M : Type*} [AddCommMonoid M]

/-- A sum over 3136 = 1024 + 1024 + 1024 + 64 places, block by block. -/
theorem sum_split4 (F : Fin 3136 → M) :
    ∑ f : Fin 3136, F f
      = (((∑ e : Fin 1024, F ⟨e.val, by omega⟩) + ∑ e : Fin 1024, F ⟨1024 + e.val, by omega⟩)
          + ∑ e : Fin 1024, F ⟨2048 + e.val, by omega⟩) + ∑ p : Fin 64, F ⟨3072 + p.val, by omega⟩ := by
  have h1 := Fin.sum_univ_add (a := 3072) (b := 64) (fun f : Fin (3072 + 64) => F f)
  have h2 := Fin.sum_univ_add (a := 2048) (b := 1024) (fun f : Fin (2048 + 1024) => F ⟨f.val, by omega⟩)
  have h3 := Fin.sum_univ_add (a := 1024) (b := 1024) (fun f : Fin (1024 + 1024) => F ⟨f.val, by omega⟩)
  refine h1.trans ?_
  refine congrArg₂ (· + ·) (h2.trans (congrArg₂ (· + ·) h3 rfl)) rfl

/-- A sum against an indicator keeps the one term it marks (`0 · x = 0` and `1 · x = x` on the extended reals,
    infinities included). -/
theorem sum_indicator {n : ℕ} (k₀ : Fin n) (x : Fin n → EReal) :
    ∑ k : Fin n, (if k = k₀ then (1 : EReal) else 0) * x k = x k₀ := by
  rw [Finset.sum_eq_single k₀]
  · rw [if_pos rfl, one_mul]
  · intro k _ hk; rw [if_neg hk, zero_mul]
  · intro h; exact absurd (Finset.mem_univ _) h

end Cert.PairScores

end
-- ==== Proof.Words.lean ====
/-
  The index words. The kernel clips every word to [0, 1999] before the tile sees it — `min 1999 (max 0 w)`, signed —
  and that clipped word is the number of the table row `row w`, for EVERY word: a negative word clips to 0, a word
  past 1999 to 1999, exactly as `row` reads it. The tile then compares the clipped word with each of the 2000 row
  numbers and turns the bit into a float: the indicator of `k = row w`.
-/
import proofs.«420652_j61607010894571_3_alg».proof.Proof.Spec
import Idealize.ShloMosaic.Lib.StableHlo.Predicate

noncomputable section

namespace Cert.PairScores

open Idealize.ShloMosaic

/-- A 32-bit word's signed value from its unsigned one. -/
theorem toInt_cases (w : BitVec 32) :
    w.toInt = if 2 * w.toNat < 2 ^ 32 then (w.toNat : ℤ) else (w.toNat : ℤ) - (2 ^ 32 : ℕ) :=
  BitVec.toInt_eq_toNat_cond w

/-- The clipped word is the selected row's number. -/
theorem clip_eq_row (w : BitVec 32) : IntOp.minsi 1999#32 (IntOp.maxsi 0#32 w) = BitVec.ofNat 32 (row w).val := by
  have hw := toInt_cases w
  have hlt := w.isLt
  have h0 : (0#32 : BitVec 32).toInt = 0 := by decide
  have h1999 : (1999#32 : BitVec 32).toInt = 1999 := by decide
  unfold IntOp.maxsi IntOp.minsi row
  by_cases hneg : w.slt 0#32 = true
  · -- a negative word: clipped to 0, and `row` reads 0
    rw [if_pos hneg]
    have hn : w.toInt < 0 := by simpa [BitVec.slt, h0] using hneg
    have h2 : ¬ (1999#32 : BitVec 32).slt 0#32 = true := by decide
    rw [if_neg h2]
    apply BitVec.eq_of_toNat_eq
    simp only [BitVec.toNat_ofNat]
    have : w.toInt.toNat = 0 := by omega
    rw [this]; rfl
  · rw [if_neg hneg]
    have hn : 0 ≤ w.toInt := by
      have : ¬ w.toInt < 0 := by simpa [BitVec.slt, h0] using hneg
      omega
    by_cases hbig : (1999#32 : BitVec 32).slt w = true
    · -- past the last row: clipped to 1999
      rw [if_pos hbig]
      have hb : 1999 < w.toInt := by simpa [BitVec.slt, h1999] using hbig
      apply BitVec.eq_of_toNat_eq
      simp only [BitVec.toNat_ofNat]
      have : min w.toInt.toNat 1999 = 1999 := by omega
      rw [this]
    · -- already a row number
      rw [if_neg hbig]
      have hb : ¬ 1999 < w.toInt := by simpa [BitVec.slt, h1999] using hbig
      apply BitVec.eq_of_toNat_eq
      simp only [BitVec.toNat_ofNat]
      split at hw <;> omega

/-- Two row numbers are the same word only when they are the same row. -/
theorem ofNat_row_inj (k k' : Fin 2000) : BitVec.ofNat 32 k.val = BitVec.ofNat 32 k'.val ↔ k = k' := by
  constructor
  · intro h
    have := congrArg BitVec.toNat h
    simp only [BitVec.toNat_ofNat] at this
    apply Fin.ext
    have h1 := k.isLt; have h2 := k'.isLt
    omega
  · rintro rfl; rfl

/-- The compare bit of a row number against another, widened and read as a float: the indicator of equality. -/
theorem onehot_entry (k₀ k : Fin 2000) :
    FloatOps.sitofp (F := Ideal) .f32 ((IntOp.cmpi .eq (BitVec.ofNat 32 k₀.val) (BitVec.ofNat 32 k.val)).setWidth 32)
      = if k = k₀ then (1 : EReal) else 0 := by
  by_cases h : k = k₀
  · subst h
    rw [if_pos rfl, (StableHlo.Predicate.cmpi_eq_iff).2 rfl]
    show (((1#1 : BitVec 1).setWidth 32).toInt : ℝ) = ((1 : ℝ) : EReal)
    norm_num
  · rw [if_neg h]
    have hne : ¬ IntOp.cmpi .eq (BitVec.ofNat 32 k₀.val) (BitVec.ofNat 32 k.val) = 1#1 := fun hc =>
      h ((ofNat_row_inj k₀ k).1 ((StableHlo.Predicate.cmpi_eq_iff).1 hc)).symm
    rw [ValueIdx.eq_zero_of_ne_one hne]
    show (((0#1 : BitVec 1).setWidth 32).toInt : ℝ) = ((0 : ℝ) : EReal)
    norm_num

end Cert.PairScores

end
-- ==== Proof.TileGather.lean ====
/-
  The tile's first product: the 800 × 2000 indicator matrix (row (p, a) marks the table row the pair's clipped index
  word names) against the whole mention table. Each entry of the product is a sum of 2000 terms of which one is not
  zero, so row (p, a) of the product is that table row: the antecedent's embedding. The other three products of the
  body are plain products too; all four are read here at an entry as sums over the contracted coordinate.
-/
import proofs.«420652_j61607010894571_3_alg».proof.Proof.Gen.KernelIdeal.Skeleton
import proofs.«420652_j61607010894571_3_alg».proof.Proof.Layouts
import proofs.«420652_j61607010894571_3_alg».proof.Proof.Words

noncomputable section

namespace Cert.KernelIdeal.Tile

open Cert.KernelIdeal Cert.KernelIdeal.Gen Idealize.ShloMosaic Idealize.ShloMosaic.ValueIdx
open Cert.PairScores Cert.PairScores.Lay
open scoped BigOperators

/-- Indicator rows against the table. -/
theorem product_table (A : FVec Ideal S800x2000 .bf16) (B : FVec Ideal S2000x1024 .bf16) (r : Fin 800) (e : Fin 1024) :
    matmul dot_S800x2000_S2000x1024_S800x1024_1_0_0_1_n_n none A B (constant S800x1024 .f32 0x00000000#32) (ix2 r e)
      = ∑ k : Fin 2000, A (ix2 r k) * B (ix2 k e) :=
  matmul_zero_apply none A B r e

/-- The tile's 16 mention rows against a 1024-row block of `W1`. -/
theorem product_own (A : FVec Ideal S16x1024 .bf16) (B : FVec Ideal S1024x1024 .bf16) (p : Fin 16) (h : Fin 1024) :
    matmul dot_S16x1024_S1024x1024_S16x1024_1_0_0_1_n_n none A B (constant S16x1024 .f32 0x00000000#32) (ix2 p h)
      = ∑ e : Fin 1024, A (ix2 p e) * B (ix2 e h) :=
  matmul_zero_apply none A B p h

/-- The 800 pair rows against a 1024-row block of `W1`. -/
theorem product_pairs (A : FVec Ideal S800x1024 .bf16) (B : FVec Ideal S1024x1024 .bf16) (r : Fin 800) (h : Fin 1024) :
    matmul dot_S800x1024_S1024x1024_S800x1024_1_0_0_1_n_n none A B (constant S800x1024 .f32 0x00000000#32) (ix2 r h)
      = ∑ e : Fin 1024, A (ix2 r e) * B (ix2 e h) :=
  matmul_zero_apply none A B r h

/-- The 800 rows of pairwise features against the last 64 rows of `W1`. -/
theorem product_pw (A : FVec Ideal S800x64 .bf16) (B : FVec Ideal S64x1024 .bf16) (r : Fin 800) (h : Fin 1024) :
    matmul dot_S800x64_S64x1024_S800x1024_1_0_0_1_n_n none A B (constant S800x1024 .f32 0x00000000#32) (ix2 r h)
      = ∑ j : Fin 64, A (ix2 r j) * B (ix2 j h) :=
  matmul_zero_apply none A B r h

/-- An integer compare of two vectors, read at an index, compares the entries. -/
theorem cmpi_at {s : Shape} {w : Nat} (pr : CmpIPredicate) (x y : IVec s w) (i : s.Idx) :
    cmpi pr x y i = IntOp.cmpi pr (x i) (y i) := rfl

/-- Row (p, a) of the indicator-times-table product is the table row the pair's index word names. -/
theorem antecedent_row (x1 : Vec Ideal S16x50 .i32) (x4 : Vec Ideal S2000x1024 .bf16) (rowOf : Fin 16 → Fin 50 → Fin 2000)
    (hrow : ∀ p a, x1 (ix2 p a) = BitVec.ofNat 32 (rowOf p a).val) (p : Fin 16) (a : Fin 50) (e : Fin 1024) :
    k0_pay4 (F := Ideal) x1 x4 (ix2 (pairRow p a) e) = x4 (ix2 (rowOf p a) e) := by
  simp only [k0_pay4]
  rw [product_table]
  refine (Finset.sum_congr rfl fun k _ => ?_).trans (sum_indicator (rowOf p a) fun k => x4 (ix2 k e))
  rw [merge_rows, shapeCast_self, shapeCast_self]
  simp only [truncf_apply, sitofp_apply, extui_apply, cmpi_at]
  rw [bcast_word, add_last_unit, bcast_rownum, rownum, hrow, onehot_entry]

end Cert.KernelIdeal.Tile

end
-- ==== Proof.TileSpec.lean ====
/-
  The score of one (mention, slot) pair from the pair's own rows: the mention's embedding `m`, the antecedent's
  embedding `g`, the pair's 64 pairwise features `q`, and the shared weights. The specification's `preact` and
  `fine` are these at the rows a pair selects out of the whole arrays; the kernel's tile computes them from the rows it
  holds, which is how the two meet.
-/
import proofs.«420652_j61607010894571_3_alg».proof.Proof.Spec

noncomputable section

namespace Cert.PairScores

open Idealize.ShloMosaic Idealize.ShloMosaic.ValueIdx
open scoped BigOperators

section
variable (m g : Fin 1024 → EReal) (q : Fin 64 → EReal)
  (W1 : FVec Ideal ⟨2, ![3136, 1024]⟩ .f32) (b1 : FVec Ideal ⟨1, ![1024]⟩ .f32) (W2 : FVec Ideal ⟨2, ![1024, 1]⟩ .f32)
  (b2 : FVec Ideal ⟨1, ![1]⟩ .f32)

/-- The hidden layer's input at unit `h` from the pair's rows. -/
def preactOf (h : Fin 1024) : EReal :=
  ((((∑ e : Fin 1024, m e * W1 (ix2 ⟨e.val, by omega⟩ h))
      + ∑ e : Fin 1024, g e * W1 (ix2 ⟨1024 + e.val, by omega⟩ h))
      + ∑ e : Fin 1024, (g e * m e) * W1 (ix2 ⟨2048 + e.val, by omega⟩ h))
      + ∑ p : Fin 64, q p * W1 (ix2 ⟨3072 + p.val, by omega⟩ h))
    + b1 (ix1 h)

/-- The pair's fine score from its rows. -/
def fineOf : EReal :=
  (∑ h : Fin 1024, lrelu (preactOf m g q W1 b1 h) * W2 (ix2 h (0 : Fin 1))) + b2 (ix1 (0 : Fin 1))

end

/-- The specification's fine score is the pair's rows' score. -/
theorem fine_eq_fineOf (table : FVec Ideal ⟨2, ![2000, 1024]⟩ .f32) (mentions : FVec Ideal ⟨2, ![512, 1024]⟩ .f32)
    (pw : FVec Ideal ⟨3, ![512, 50, 64]⟩ .f32) (idx : IVec ⟨2, ![512, 50]⟩ 32)
    (W1 : FVec Ideal ⟨2, ![3136, 1024]⟩ .f32) (b1 : FVec Ideal ⟨1, ![1024]⟩ .f32) (W2 : FVec Ideal ⟨2, ![1024, 1]⟩ .f32)
    (b2 : FVec Ideal ⟨1, ![1]⟩ .f32) (b : Fin 512) (a : Fin 50) :
    fine table mentions pw idx W1 b1 W2 b2 b a
      = fineOf (fun e => mentions (ix2 b e)) (fun e => table (ix2 (row (idx (ix2 b a))) e)) (fun p => pw (ix3 b a p))
          W1 b1 W2 b2 := rfl

end Cert.PairScores

end
-- ==== Proof.TileValue.lean ====
/-
  The tile's result at an entry. For pair (p, a) of the tile, with `m` the mention's row, `g` the antecedent's row
  (the table row its clipped index word names) and `q` the pair's pairwise features, the body adds four products:
  `m · W1[0:1024]` (computed once per mention and laid along its 50 slots), `g · W1[1024:2048]`,
  `(g ⊙ m) · W1[2048:3072]` and `q · W1[3072:3136]`, then `b1`; applies the leaky rectifier; multiplies by `W2`'s column
  and sums over the 1024 hidden units; adds `b2` and the rough score; and puts the literal `1e-7` in front as column 0.
  That is the pair's score as `fineOf` states it.
-/
import proofs.«420652_j61607010894571_3_alg».proof.Proof.TileGather
import proofs.«420652_j61607010894571_3_alg».proof.Proof.TileSpec

noncomputable section

namespace Cert.KernelIdeal.Tile

open Cert.KernelIdeal Cert.KernelIdeal.Gen Idealize.ShloMosaic Idealize.ShloMosaic.ValueIdx
open Cert.PairScores Cert.PairScores.Lay
open scoped BigOperators

variable (x0 : Vec Ideal S16x1024 .f32) (x1 : Vec Ideal S16x50 .i32) (x2 : Vec Ideal S16x50x64 .f32)
  (x3 : Vec Ideal S16x50 .f32) (x4 : Vec Ideal S2000x1024 .bf16) (x5 : Vec Ideal S3136x1024 .bf16)
  (x6 : Vec Ideal S1024x1 .bf16) (x7 : Vec Ideal S1024 .f32) (x8 : Vec Ideal S1 .f32)

/-- Row (p, a) of the entrywise product: the antecedent's row times the mention's. -/
theorem product_row (p : Fin 16) (a : Fin 50) (e : Fin 1024) :
    k0_pay5 (F := Ideal) x0 x1 x4 (ix2 (pairRow p a) e) = k0_pay4 x1 x4 (ix2 (pairRow p a) e) * x0 (ix2 p e) := by
  simp only [k0_pay5]
  rw [merge_rows]
  simp only [mulf_apply]
  rw [split_rows, bcast_slots, add_mid_unit]

/-- `W1`'s second row block, against the antecedent's row. -/
theorem w1_block1 (e h : Fin 1024) :
    k0_pay6 (F := Ideal) x5 (ix2 e h) = x5 (ix2 (⟨1024 + e.val, by omega⟩ : Fin 3136) h) := by
  simp only [k0_pay6, k0_pay2]
  rw [shapeCast_self]
  exact slice2_axis0_apply 1024 x5 _ e h _ rfl

/-- `W1`'s third row block, against the product row. -/
theorem w1_block2 (e h : Fin 1024) :
    k0_pay7 (F := Ideal) x5 (ix2 e h) = x5 (ix2 (⟨2048 + e.val, by omega⟩ : Fin 3136) h) := by
  simp only [k0_pay7, k0_pay2]
  rw [shapeCast_self]
  exact slice2_axis0_apply 2048 x5 _ e h _ rfl

/-- `W1`'s last 64 rows, against the pairwise features. -/
theorem w1_block3 (j : Fin 64) (h : Fin 1024) :
    k0_pay8 (F := Ideal) x5 (ix2 j h) = x5 (ix2 (⟨3072 + j.val, by omega⟩ : Fin 3136) h) := by
  simp only [k0_pay8, k0_pay2]
  rw [shapeCast_self]
  exact slice2_axis0_apply 3072 x5 _ j h _ rfl

/-- The mention's own contribution, the same at each of its slots: its row against `W1`'s first row block. -/
theorem own_row (p : Fin 16) (a : Fin 50) (h : Fin 1024) :
    k0_pay9 (F := Ideal) x0 x5 (ix2 (pairRow p a) h)
      = ∑ e : Fin 1024, x0 (ix2 p e) * x5 (ix2 (⟨e.val, by omega⟩ : Fin 3136) h) := by
  simp only [k0_pay9, k0_pay2]
  rw [merge_rows, bcast_slots, shapeCast_self, add_mid_unit, product_own]
  refine Finset.sum_congr rfl fun e _ => ?_
  simp only [truncf_apply]
  rw [shapeCast_self]
  exact congrArg (x0 (ix2 p e) * ·) (slice2_axis0_apply 0 x5 _ e h _ (Nat.zero_add _).symm)

/-- Column 0 of the tile's result: the literal. -/
theorem tile_first (p : Fin 16) :
    k0_pay1 (F := Ideal) x2 x3 (k0_pay3 x6) x7 x8 (k0_pay5 x0 x1 x4) (k0_pay6 x5) (k0_pay7 x5) (k0_pay8 x5) (k0_pay9 x0 x5)
        (k0_pay10 x1 x4) (constant S800x1024 .f32 0x00000000#32) (ix2 p (0 : Fin 51))
      = Ideal.ofBits .f32 0x33D6BF95#32 := by
  simp only [k0_pay1]
  exact concatenate_pair_apply_left (t := S16x51) (s₁ := S16x1) (s₂ := S16x50) (1 : Fin 2) _ _ _ (ix2 p (0 : Fin 51)) rfl
    (ix2 p (0 : Fin 1)) (fun b => by
      match b with
      | ⟨0, _⟩ => rfl
      | ⟨1, _⟩ => rfl)

/-- Column a + 1 of the tile's result: the rough score plus the pair's fine score. -/
theorem tile_score (rowOf : Fin 16 → Fin 50 → Fin 2000) (hrow : ∀ p a, x1 (ix2 p a) = BitVec.ofNat 32 (rowOf p a).val)
    (p : Fin 16) (a : Fin 50) :
    k0_pay1 (F := Ideal) x2 x3 (k0_pay3 x6) x7 x8 (k0_pay5 x0 x1 x4) (k0_pay6 x5) (k0_pay7 x5) (k0_pay8 x5) (k0_pay9 x0 x5)
        (k0_pay10 x1 x4) (constant S800x1024 .f32 0x00000000#32) (ix2 p (⟨a.val + 1, by omega⟩ : Fin 51))
      = x3 (ix2 p a)
        + fineOf (fun e => x0 (ix2 p e)) (fun e => x4 (ix2 (rowOf p a) e)) (fun j => x2 (ix3 p a j)) x5 x7 x6 x8 := by
  simp only [k0_pay1]
  rw [concatenate_pair_apply_right (t := S16x51) (s₁ := S16x1) (s₂ := S16x50) (1 : Fin 2) _ _ _
    (ix2 p (⟨a.val + 1, by omega⟩ : Fin 51)) rfl rfl (ix2 p a)
    (fun b hb => by
      match b with
      | ⟨0, _⟩ => rfl
      | ⟨1, _⟩ => exact absurd rfl hb)
    (by show a.val + 1 = a.val + 1; rfl)]
  simp only [addf_apply]
  refine congrArg (x3 (ix2 p a) + ·) ?_
  unfold fineOf
  refine congrArg₂ (· + ·) ?_ ?_
  · refine (Ideal.multiReduction_add_single _ _ _ _ _ (ix2 p a)).trans ?_
    refine Finset.sum_congr rfl fun (h : Fin 1024) _ => ?_
    rw [lift_last]
    simp only [mulf_apply]
    rw [split_rows, bcast_pairs, add_two_units, column_as_vector]
    simp only [extf_apply, k0_pay3]
    rw [shapeCast_self]
    refine congrArg (· * x6 (ix2 h (0 : Fin 1))) ?_
    simp only [select_apply, cmpf_apply, mulf_apply, addf_apply, broadcast_apply]
    rw [own_row, product_pairs, product_pairs, product_pw, broadcastTo_1b_ab_apply, shapeCast_a_1a_apply]
    simp only [k0_pay10, truncf_apply, product_row, antecedent_row x1 x4 rowOf hrow, w1_block1, w1_block2, w1_block3,
      merge_rows]
    rfl
  · exact congrArg x8 (funext fun d => Fin.ext (by match d with | ⟨0, _⟩ => rfl))

end Cert.KernelIdeal.Tile

end
-- ==== Proof.Entry.lean ====
/-
  What the kernel's region finds in the four buffers its host prefix computes. The three format changes of the mention
  table, `W1` and `W2` are the identity on the extended reals, so the region finds the argument arrays themselves; the
  clipped index buffer holds, at every (mention, slot), the number of the table row that pair's word selects.
-/
import proofs.«420652_j61607010894571_3_alg».proof.Proof.Gen.KernelIdeal.Frame
import proofs.«420652_j61607010894571_3_alg».proof.Proof.Words
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Cert.PairScores

variable (m : (ℓ : Loc nD τ sig) → Buf (Elt Ideal) ℓ)

/-- The mention table as the region finds it. -/
theorem table_entry (c : Dev nD) :
    (V m c main_v0 : S2000x1024.Idx → EReal) = m ((c : Thread nD τ).loc main_arg0) := by
  dsimp only [Gen.V]
  simp only [hostOps0, hostOps0_1, List.flatten_cons, List.flatten_nil, List.append_nil, List.cons_append, List.nil_append]
  after_results
  rfl

/-- `W1` as the region finds it. -/
theorem w1_entry (c : Dev nD) :
    (V m c main_v1 : S3136x1024.Idx → EReal) = m ((c : Thread nD τ).loc main_arg5) := by
  dsimp only [Gen.V]
  simp only [hostOps0, hostOps0_1, List.flatten_cons, List.flatten_nil, List.append_nil, List.cons_append, List.nil_append]
  after_results
  rfl

/-- `W2` as the region finds it. -/
theorem w2_entry (c : Dev nD) :
    (V m c main_v2 : S1024x1.Idx → EReal) = m ((c : Thread nD τ).loc main_arg7) := by
  dsimp only [Gen.V]
  simp only [hostOps0, hostOps0_1, List.flatten_cons, List.flatten_nil, List.append_nil, List.cons_append, List.nil_append]
  after_results
  rfl

/-- The clipped index buffer: at every (mention, slot), the number of the row the pair's word selects. -/
theorem idx_entry (c : Dev nD) (i : S512x50.Idx) :
    (V m c main_v3 : S512x50.Idx → BitVec 32) i
      = BitVec.ofNat 32 (row ((m ((c : Thread nD τ).loc main_arg3) : S512x50.Idx → BitVec 32) i)).val := by
  have e : (V m c main_v3 : S512x50.Idx → BitVec 32)
      = minsi (broadcastInDim S512x50 ![] bcast_S_S512x50 (id (constantI S_ 32 1999#32)))
          (maxsi (broadcastInDim S512x50 ![] bcast_S_S512x50 (id (constantI S_ 32 0#32))) (m ((c : Thread nD τ).loc main_arg3))) := by
    dsimp only [Gen.V]
    simp only [hostOps0, hostOps0_1, List.flatten_cons, List.flatten_nil, List.append_nil, List.cons_append, List.nil_append]
    after_results
    rfl
  rw [e]
  exact clip_eq_row _

end Cert.KernelIdeal.Entry

end
-- ==== Proof.KernelValue.lean ====
/-
  From the tile to the whole result array. The grid has 32 points; point `t` works on mentions 16·t … 16·t + 15: its
  blocks of the mentions, of the clipped index words, of the pairwise features and of the rough scores are those rows,
  the table, `W1`, `W2`, `b1` and `b2` come whole, and it writes rows 16·t … 16·t + 15 of the result. Entry (p, q) of
  what point `t` writes back is the specification's score at (16·t + p, q); the 32 row blocks tile the 512 rows; so the
  array the run leaves is the specification's `scores` of the nine argument arrays.
-/
import proofs.«420652_j61607010894571_3_alg».proof.Proof.Gen.KernelIdeal.Value
import proofs.«420652_j61607010894571_3_alg».proof.Proof.TileValue
import proofs.«420652_j61607010894571_3_alg».proof.Proof.Entry

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.PairScores Cert.PairScores.Lay Cert.KernelIdeal.Tile Cert.KernelIdeal.Entry

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The specification's result of the argument arrays as launched. -/
abbrev result (c : Dev nD) : S512x51.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The printed index maps over the 32 points: the four tiled inputs and the output are at row block `t`, the
    five resident inputs at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 1) = 0
    ∧ win0_9.index t (0 : Fin 2) = t.val ∧ win0_9.index t (1 : Fin 2) = 0 :=
  (by decide +kernel : ∀ t : Fin grid0.N, _)

/-- Mention `p` of point `t`'s tile among the 512. -/
def tileRow (t : Fin cfg0.N) (p : Fin 16) : Fin 512 :=
  ⟨16 * t.val + p.val, by have h := t.isLt; have hN : cfg0.N = 32 := N_0; omega⟩

/-! ## The blocks a point reads -/

theorem mentions_block (c : Dev nD) (t : Fin cfg0.N) (p : Fin 16) (e : Fin 1024) :
    iblk m c 0 t (ix2 p e) = (m ((c : Thread nD τ).loc main_arg1) : S512x1024.Idx → EReal) (ix2 (tileRow t p) e) := by
  show V m c main_arg1 (((cfg0.win 0).blk t).view.emb (ix2 p e)) = _
  rw [V_main_arg1]
  refine congrArg _ (funext fun a => Fin.ext ?_)
  obtain ⟨e0, e1, -⟩ := idx_facts t
  match a with
  | ⟨0, _⟩ => show win0_0.index t (0 : Fin 2) * 16 + 1 * p.val = 16 * t.val + p.val; omega
  | ⟨1, _⟩ => show win0_0.index t (1 : Fin 2) * 1024 + 1 * e.val = e.val; omega

theorem idx_block (c : Dev nD) (t : Fin cfg0.N) (p : Fin 16) (a : Fin 50) :
    iblk m c 1 t (ix2 p a)
      = BitVec.ofNat 32 (row ((m ((c : Thread nD τ).loc main_arg3) : S512x50.Idx → BitVec 32) (ix2 (tileRow t p) a))).val := by
  show V m c main_v3 (((cfg0.win 1).blk t).view.emb (ix2 p a)) = _
  have hemb : ((cfg0.win 1).blk t).view.emb (ix2 p a) = (ix2 (tileRow t p) a : S512x50.Idx) := by
    refine funext fun ax => Fin.ext ?_
    obtain ⟨-, -, e0, e1, -⟩ := idx_facts t
    match ax with
    | ⟨0, _⟩ => show win0_1.index t (0 : Fin 2) * 16 + 1 * p.val = 16 * t.val + p.val; omega
    | ⟨1, _⟩ => show win0_1.index t (1 : Fin 2) * 50 + 1 * a.val = a.val; omega
  rw [hemb]
  exact idx_entry m c _

theorem pw_block (c : Dev nD) (t : Fin cfg0.N) (p : Fin 16) (a : Fin 50) (j : Fin 64) :
    iblk m c 2 t (ix3 p a j) = (m ((c : Thread nD τ).loc main_arg2) : S512x50x64.Idx → EReal) (ix3 (tileRow t p) a j) := by
  show V m c main_arg2 (((cfg0.win 2).blk t).view.emb (ix3 p a j)) = _
  rw [V_main_arg2]
  refine congrArg _ (funext fun ax => Fin.ext ?_)
  obtain ⟨-, -, -, -, e0, e1, e2, -⟩ := idx_facts t
  match ax with
  | ⟨0, _⟩ => show win0_2.index t (0 : Fin 3) * 16 + 1 * p.val = 16 * t.val + p.val; omega
  | ⟨1, _⟩ => show win0_2.index t (1 : Fin 3) * 50 + 1 * a.val = a.val; omega
  | ⟨2, _⟩ => show win0_2.index t (2 : Fin 3) * 64 + 1 * j.val = j.val; omega

theorem rough_block (c : Dev nD) (t : Fin cfg0.N) (p : Fin 16) (a : Fin 50) :
    iblk m c 3 t (ix2 p a) = (m ((c : Thread nD τ).loc main_arg4) : S512x50.Idx → EReal) (ix2 (tileRow t p) a) := by
  show V m c main_arg4 (((cfg0.win 3).blk t).view.emb (ix2 p a)) = _
  rw [V_main_arg4]
  refine congrArg _ (funext fun ax => Fin.ext ?_)
  obtain ⟨-, -, -, -, -, -, -, e0, e1, -⟩ := idx_facts t
  match ax with
  | ⟨0, _⟩ => show win0_3.index t (0 : Fin 2) * 16 + 1 * p.val = 16 * t.val + p.val; omega
  | ⟨1, _⟩ => show win0_3.index t (1 : Fin 2) * 50 + 1 * a.val = a.val; omega

theorem table_block (c : Dev nD) (t : Fin cfg0.N) :
    iblk m c 4 t = (m ((c : Thread nD τ).loc main_arg0) : S2000x1024.Idx → EReal) := by
  funext y
  show V m c main_v0 (((cfg0.win 4).blk t).view.emb y) = _
  have hemb : ((cfg0.win 4).blk t).view.emb y = (y : S2000x1024.Idx) := by
    refine funext fun ax => Fin.ext ?_
    obtain ⟨-, -, -, -, -, -, -, -, -, e0, e1, -⟩ := idx_facts t
    match ax with
    | ⟨0, _⟩ => show win0_4.index t (0 : Fin 2) * 2000 + 1 * (y 0).val = (y 0).val; omega
    | ⟨1, _⟩ => show win0_4.index t (1 : Fin 2) * 1024 + 1 * (y 1).val = (y 1).val; omega
  rw [hemb]
  exact congrFun (table_entry m c) y

theorem w1_block (c : Dev nD) (t : Fin cfg0.N) :
    iblk m c 5 t = (m ((c : Thread nD τ).loc main_arg5) : S3136x1024.Idx → EReal) := by
  funext y
  show V m c main_v1 (((cfg0.win 5).blk t).view.emb y) = _
  have hemb : ((cfg0.win 5).blk t).view.emb y = (y : S3136x1024.Idx) := by
    refine funext fun ax => Fin.ext ?_
    obtain ⟨-, -, -, -, -, -, -, -, -, -, -, e0, e1, -⟩ := idx_facts t
    match ax with
    | ⟨0, _⟩ => show win0_5.index t (0 : Fin 2) * 3136 + 1 * (y 0).val = (y 0).val; omega
    | ⟨1, _⟩ => show win0_5.index t (1 : Fin 2) * 1024 + 1 * (y 1).val = (y 1).val; omega
  rw [hemb]
  exact congrFun (w1_entry m c) y

theorem w2_block (c : Dev nD) (t : Fin cfg0.N) :
    iblk m c 6 t = (m ((c : Thread nD τ).loc main_arg7) : S1024x1.Idx → EReal) := by
  funext y
  show V m c main_v2 (((cfg0.win 6).blk t).view.emb y) = _
  have hemb : ((cfg0.win 6).blk t).view.emb y = (y : S1024x1.Idx) := by
    refine funext fun ax => Fin.ext ?_
    obtain ⟨-, -, -, -, -, -, -, -, -, -, -, -, -, e0, e1, -⟩ := idx_facts t
    match ax with
    | ⟨0, _⟩ => show win0_6.index t (0 : Fin 2) * 1024 + 1 * (y 0).val = (y 0).val; omega
    | ⟨1, _⟩ => show win0_6.index t (1 : Fin 2) * 1 + 1 * (y 1).val = (y 1).val; omega
  rw [hemb]
  exact congrFun (w2_entry m c) y

theorem b1_block (c : Dev nD) (t : Fin cfg0.N) :
    iblk m c 7 t = (m ((c : Thread nD τ).loc main_arg6) : S1024.Idx → EReal) := by
  funext y
  show V m c main_arg6 (((cfg0.win 7).blk t).view.emb y) = _
  rw [V_main_arg6]
  refine congrArg _ (funext fun ax => Fin.ext ?_)
  obtain ⟨-, -, -, -, -, -, -, -, -, -, -, -, -, -, -, e0, -⟩ := idx_facts t
  match ax with
  | ⟨0, _⟩ => show win0_7.index t (0 : Fin 1) * 1024 + 1 * (y 0).val = (y 0).val; omega

theorem b2_block (c : Dev nD) (t : Fin cfg0.N) :
    iblk m c 8 t = (m ((c : Thread nD τ).loc main_arg8) : S1.Idx → EReal) := by
  funext y
  show V m c main_arg8 (((cfg0.win 8).blk t).view.emb y) = _
  rw [V_main_arg8]
  refine congrArg _ (funext fun ax => Fin.ext ?_)
  obtain ⟨-, -, -, -, -, -, -, -, -, -, -, -, -, -, -, -, e0, -⟩ := idx_facts t
  match ax with
  | ⟨0, _⟩ => show win0_8.index t (0 : Fin 1) * 1 + 1 * (y 0).val = (y 0).val; omega

/-! ## What a point writes back -/

/-- Entry (p, q) of point `t`'s tile is the specification's score at (16·t + p, q). -/
theorem block_entry (c : Dev nD) (t : Fin cfg0.N) (p : Fin 16) (q : Fin 51) :
    k0_pay1 (F := Ideal) (iblk m c 2 t) (iblk m c 3 t) (k0_pay3 (iblk m c 6 t)) (iblk m c 7 t) (iblk m c 8 t)
        (k0_pay5 (iblk m c 0 t) (iblk m c 1 t) (iblk m c 4 t)) (k0_pay6 (iblk m c 5 t)) (k0_pay7 (iblk m c 5 t))
        (k0_pay8 (iblk m c 5 t)) (k0_pay9 (iblk m c 0 t) (iblk m c 5 t)) (k0_pay10 (iblk m c 1 t) (iblk m c 4 t))
        (constant S800x1024 .f32 0x00000000#32) (ix2 p q)
      = result m c (ix2 (tileRow t p) q) := by
  by_cases hq : q.val = 0
  · obtain rfl : q = (0 : Fin 51) := Fin.ext hq
    refine (tile_first (iblk m c 0 t) (iblk m c 1 t) (iblk m c 2 t) (iblk m c 3 t) (iblk m c 4 t) (iblk m c 5 t)
      (iblk m c 6 t) (iblk m c 7 t) (iblk m c 8 t) p).trans ?_
    exact (scores_zero _ _ _ _ _ _ _ _ _ (tileRow t p)).symm
  · obtain ⟨a, rfl⟩ : ∃ a : Fin 50, q = (⟨a.val + 1, by omega⟩ : Fin 51) :=
      ⟨⟨q.val - 1, by have := q.isLt; omega⟩, Fin.ext (by show q.val = q.val - 1 + 1; omega)⟩
    refine (tile_score (iblk m c 0 t) (iblk m c 1 t) (iblk m c 2 t) (iblk m c 3 t) (iblk m c 4 t) (iblk m c 5 t)
      (iblk m c 6 t) (iblk m c 7 t) (iblk m c 8 t)
      (fun p a => row ((m ((c : Thread nD τ).loc main_arg3) : S512x50.Idx → BitVec 32) (ix2 (tileRow t p) a)))
      (fun p a => idx_block m c t p a) p a).trans ?_
    refine Eq.trans ?_ (scores_succ _ _ _ _ _ _ _ _ _ (tileRow t p) a).symm
    rw [fine_eq_fineOf, rough_block, table_block, w1_block, w2_block, b1_block, b2_block]
    simp only [mentions_block, pw_block]

/-- WHAT POINT `t` WRITES BACK is block `t` of the specification's result. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz2]
  simp only [View.ld_unit_zero (S := S16x1024) hz2, View.ld_unit_zero (S := S16x50) hz2,
    View.ld_unit_zero (S := S16x50x64) hz3, View.ld_unit_zero (S := S2000x1024) hz2,
    View.ld_unit_zero (S := S3136x1024) hz2, View.ld_unit_zero (S := S1024x1) hz2, View.ld_unit_zero (S := S1024) hz1,
    View.ld_unit_zero (S := S1) hz1]
  funext y
  have hy : (y : S16x51.Idx) = ix2 (y 0) (y 1) := eq_ix2 y
  show k0_pay1 (F := Ideal) (iblk m c 2 t) (iblk m c 3 t) (k0_pay3 (iblk m c 6 t)) (iblk m c 7 t) (iblk m c 8 t)
        (k0_pay5 (iblk m c 0 t) (iblk m c 1 t) (iblk m c 4 t)) (k0_pay6 (iblk m c 5 t)) (k0_pay7 (iblk m c 5 t))
        (k0_pay8 (iblk m c 5 t)) (k0_pay9 (iblk m c 0 t) (iblk m c 5 t)) (k0_pay10 (iblk m c 1 t) (iblk m c 4 t))
        (constant S800x1024 .f32 0x00000000#32) (y : S16x51.Idx)
      = result m c (((cfg0.win 9).blk t).view.emb y)
  have hemb : ((cfg0.win 9).blk t).view.emb y = (ix2 (tileRow t (y 0)) (y 1) : S512x51.Idx) := by
    refine funext fun ax => Fin.ext ?_
    obtain ⟨-, -, -, -, -, -, -, -, -, -, -, -, -, -, -, -, -, e0, e1⟩ := idx_facts t
    match ax with
    | ⟨0, _⟩ => show win0_9.index t (0 : Fin 2) * 16 + 1 * (y 0).val = 16 * t.val + (y 0).val; omega
    | ⟨1, _⟩ => show win0_9.index t (1 : Fin 2) * 51 + 1 * (y 1).val = (y 1).val; omega
  rw [hemb, hy]
  exact block_entry m c t (y 0) (y 1)

/-! ## The 32 row blocks tile the array -/

/-- An index of the array is in point `t`'s block iff each coordinate is in the block's range on its axis. -/
theorem mem_blk (t : Fin cfg0.N) (i : S512x51.Idx) :
    i ∈ ((cfg0.win 9).blk t).view.set ↔ ∀ a : Fin 2, win0_9.index t a * S16x51.size a ≤ (i a).val
      ∧ (i a).val < win0_9.index t a * S16x51.size a + S16x51.size a := by
  show i ∈ ((View.whole main_v4).slice (win0_9.rect t)).set ↔ _
  rw [View.set_slice_whole, Rect.mem_set_unit]
  exact Iff.rfl

/-- Every index is in the block of the point its row falls to. -/
theorem cover (i : S512x51.Idx) :
    ∃ t : Fin cfg0.N, (cfg0.win 9).flush t = true ∧ i ∈ ((cfg0.win 9).blk t).view.set := by
  have hi0 : (i 0).val < 512 := (i 0).isLt
  have hi1 : (i 1).val < 51 := (i 1).isLt
  have hN : cfg0.N = 32 := N_0
  refine ⟨⟨(i 0).val / 16, by omega⟩, flush0_9 _, ?_⟩
  rw [mem_blk]
  obtain ⟨-, -, -, -, -, -, -, -, -, -, -, -, -, -, -, -, -, e0, e1⟩ := idx_facts ⟨(i 0).val / 16, by omega⟩
  intro a
  match a with
  | ⟨0, _⟩ =>
    show win0_9.index ⟨(i 0).val / 16, _⟩ (0 : Fin 2) * 16 ≤ (i 0).val
      ∧ (i 0).val < win0_9.index ⟨(i 0).val / 16, _⟩ (0 : Fin 2) * 16 + 16
    rw [e0]; show (i 0).val / 16 * 16 ≤ (i 0).val ∧ (i 0).val < (i 0).val / 16 * 16 + 16; omega
  | ⟨1, _⟩ =>
    show win0_9.index ⟨(i 0).val / 16, _⟩ (1 : Fin 2) * 51 ≤ (i 1).val
      ∧ (i 1).val < win0_9.index ⟨(i 0).val / 16, _⟩ (1 : Fin 2) * 51 + 51
    rw [e1]; omega

/-- THE ARRAY after the run: the specification's result of the argument arrays. -/
theorem final (c : Dev nD) : (dats m 0 c).arrAt 9 cfg0.N = result m c :=
  (dats m 0 c).arrAt_eq_of_cover 9 (result m c) (fun t _ => flushed_eq m c t) cover

/-- The kernel's run re-posted: the result array at the specification's scores, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.PreIndex.lean ====
/-
  What the precondition says about the index words: its last conjunct, `all (idx ≥ 0)`, makes every word
  non-negative as a signed integer. The conjuncts before it (every float input finite) are not opened: nothing in the
  proof needs them.
-/
import proofs.«420652_j61607010894571_3_alg».proof.Pre_finite_inputs
import Idealize.ShloMosaic.Lib.ReduceAll
import Idealize.ShloMosaic.Lib.ValueIdx
import Idealize.ShloMosaic.Lib.StableHlo.Predicate

noncomputable section

namespace Cert.PairScores.PreIndex

open Idealize.ShloMosaic Cert.Pre_finite_inputs

variable [Cert.Pre_finite_inputs.Facts]
variable {F : FTy → Type} [FloatOps F]

/-- The scalar shape has one index. -/
instance : Subsingleton S_.Idx := ⟨fun a b => funext fun d => d.elim0⟩

/-- A word that compares `≥ 0` (signed) has a non-negative signed value. -/
theorem nonneg_of_sge_zero (w : BitVec 32) (h : IntOp.cmpi .sge w 0#32 = 1#1) : 0 ≤ w.toInt := by
  unfold IntOp.cmpi at h
  have h0 : (0#32 : BitVec 32).toInt = 0 := by decide
  simpa [BitVec.sle, h0, StableHlo.Predicate.ofBool_eq_one_iff] using h

/-- Under the precondition every index word is non-negative. -/
theorem idx_nonneg (a0 : FVec F S2000x1024 .f32) (a1 : FVec F S512x1024 .f32) (a2 : FVec F S512x50x64 .f32)
    (a3 : IVec S512x50 32) (a4 : FVec F S512x50 .f32) (a5 : FVec F S3136x1024 .f32) (a6 : FVec F S1024 .f32)
    (a7 : FVec F S1024x1 .f32) (a8 : FVec F S1 .f32)
    (h : fn (F := F) a0 a1 a2 a3 a4 a5 a6 a7 a8 = fun _ => 1#1) (i : S512x50.Idx) : 0 ≤ (a3 i).toInt := by
  have h0 := congrFun h ValueIdx.ix0
  dsimp only [fn, fn_part1, fn_part2] at h0
  have h1 : IntOp.andi _ _ = 1#1 := h0
  have h2 := (IntOp.andi_eq_one.1 h1).2
  have h3 := Host.reduce_andi_all _ _ _ _ _ h2 i
  exact nonneg_of_sge_zero (a3 i) h3

end Cert.PairScores.PreIndex

end
-- ==== Proof.RefRun.lean ====
/-
  The reference program's @main as ONE straight line of its host operations, the two module-local functions'
  operations listed inline at the call site over the call's buffer records, and its run read back: every weakly
  fair execution terminates with the result buffer at `refOut` of the nine argument arrays' launch contents and
  the arguments unchanged. `refOut` is the operations' composed pure term, written stage by stage: the index
  words with the negative ones wrapped by the table's height, the gathered rows, the mention's row repeated over
  the antecedent slots, the four-piece feature vector, the hidden layer's input, its leaky rectification, the fine
  score, and the final row with the literal in front.
-/
import proofs.«420652_j61607010894571_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call unfolded: seventeen of its own, then `leaky_relu`'s six (the zero and
    its broadcast, the comparison, the slope and its broadcast, the product) and `_where`'s select into the
    records `main_call0` and `main_call0.call0`, then nine more of its own. -/
abbrev ops : List (HloOp τ sig (Elt F)) :=
  [ nullary main_c (constantI S_ 32 0#32),
    unary main_c main_v0 (broadcastInDim S512x50 ![] bcast_S_S512x50 : (⟨S_, .i32⟩ : BufTy).Contents (Elt F) → (⟨S512x50, .i32⟩ : BufTy).Contents (Elt F)),
    binary main_arg3 main_v0 main_v1 (cmpi .slt : (⟨S512x50, .i32⟩ : BufTy).Contents (Elt F) → (⟨S512x50, .i32⟩ : BufTy).Contents (Elt F) → (⟨S512x50, .i1⟩ : BufTy).Contents (Elt F)),
    nullary main_c_0 (constantI S_ 32 2000#32),
    unary main_c_0 main_v2 (broadcastInDim S512x50 ![] bcast_S_S512x50 : (⟨S_, .i32⟩ : BufTy).Contents (Elt F) → (⟨S512x50, .i32⟩ : BufTy).Contents (Elt F)),
    binary main_arg3 main_v2 main_v3 (addi : (⟨S512x50, .i32⟩ : BufTy).Contents (Elt F) → (⟨S512x50, .i32⟩ : BufTy).Contents (Elt F) → (⟨S512x50, .i32⟩ : BufTy).Contents (Elt F)),
    ternary main_v1 main_v3 main_arg3 main_v4 (select : (⟨S512x50, .i1⟩ : BufTy).Contents (Elt F) → (⟨S512x50, .i32⟩ : BufTy).Contents (Elt F) → (⟨S512x50, .i32⟩ : BufTy).Contents (Elt F) → (⟨S512x50, .i32⟩ : BufTy).Contents (Elt F)),
    unary main_v4 main_v5 (broadcastInDim S512x50x1 ![0, 1] bcast_S512x50_S512x50x1_0_1 : (⟨S512x50, .i32⟩ : BufTy).Contents (Elt F) → (⟨S512x50x1, .i32⟩ : BufTy).Contents (Elt F)),
    binary main_arg0 main_v5 main_v6 ((fun x i => Host.gather gather_S2000x1024_S512x50x1_S512x50x1024_2_0_n_n_0_2_11024 x i) : (⟨S2000x1024, .f32⟩ : BufTy).Contents (Elt F) → (⟨S512x50x1, .i32⟩ : BufTy).Contents (Elt F) → (⟨S512x50x1024, .f32⟩ : BufTy).Contents (Elt F)),
    unary main_arg1 main_v7 (broadcastInDim S512x1x1024 ![0, 2] bcast_S512x1024_S512x1x1024_0_2 : (⟨S512x1024, .f32⟩ : BufTy).Contents (Elt F) → (⟨S512x1x1024, .f32⟩ : BufTy).Contents (Elt F)),
    unary main_v7 main_v8 (broadcastInDim S512x50x1024 ![0, 1, 2] bcast_S512x1x1024_S512x50x1024_0_1_2 : (⟨S512x1x1024, .f32⟩ : BufTy).Contents (Elt F) → (⟨S512x50x1024, .f32⟩ : BufTy).Contents (Elt F)),
    binary main_v8 main_v6 main_v9 (mulf : (⟨S512x50x1024, .f32⟩ : BufTy).Contents (Elt F) → (⟨S512x50x1024, .f32⟩ : BufTy).Contents (Elt F) → (⟨S512x50x1024, .f32⟩ : BufTy).Contents (Elt F)),
    nary ![main_v8, main_v6, main_v9, main_arg2] main_v10 (fun u => concatenate S512x50x3136 2 [⟨S512x50x1024, u 0⟩, ⟨S512x50x1024, u 1⟩, ⟨S512x50x1024, u 2⟩, ⟨S512x50x64, u 3⟩] concatenates_S512x50x1024_S512x50x1024_S512x50x1024_S512x50x64_S512x50x3136_d2),
    binary main_v10 main_arg5 main_v11 ((fun l r => Host.dotGeneral dot_S512x50x3136_S3136x1024_S512x50x1024_2_0_01_1_n_n none l r) : (⟨S512x50x3136, .f32⟩ : BufTy).Contents (Elt F) → (⟨S3136x1024, .f32⟩ : BufTy).Contents (Elt F) → (⟨S512x50x1024, .f32⟩ : BufTy).Contents (Elt F)),
    unary main_arg6 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S512x50x1024 ![0, 1, 2] bcast_S1x1x1024_S512x50x1024_0_1_2 : (⟨S1x1x1024, .f32⟩ : BufTy).Contents (Elt F) → (⟨S512x50x1024, .f32⟩ : BufTy).Contents (Elt F)),
    binary main_v11 main_v13 main_v14 (addf : (⟨S512x50x1024, .f32⟩ : BufTy).Contents (Elt F) → (⟨S512x50x1024, .f32⟩ : BufTy).Contents (Elt F) → (⟨S512x50x1024, .f32⟩ : BufTy).Contents (Elt F)),
    TRef.nullary main_call0.cst (constant S_ .f32 0x00000000#32),
    TRef.unary main_call0.cst main_call0.v0 (broadcastInDim S512x50x1024 ![] bcast_S_S512x50x1024),
    TRef.binary (.of main_v14) main_call0.v0 main_call0.v1 (cmpf .oge),
    TRef.nullary main_call0.cst_0 (constant S_ .f32 0x3C23D70A#32),
    TRef.unary main_call0.cst_0 main_call0.v2 (broadcastInDim S512x50x1024 ![] bcast_S_S512x50x1024),
    TRef.binary main_call0.v2 (.of main_v14) main_call0.v3 mulf,
    TRef.ternary main_call0.v1 (.of main_v14) main_call0.v3 main_call0.call0.v0 select,
    binary main_v15 main_arg7 main_v16 ((fun l r => Host.dotGeneral dot_S512x50x1024_S1024x1_S512x50x1_2_0_01_1_n_n none l r) : (⟨S512x50x1024, .f32⟩ : BufTy).Contents (Elt F) → (⟨S1024x1, .f32⟩ : BufTy).Contents (Elt F) → (⟨S512x50x1, .f32⟩ : BufTy).Contents (Elt F)),
    unary main_arg8 main_v17 (broadcastInDim S1x1x1 ![2] bcast_S1_S1x1x1_2 : (⟨S1, .f32⟩ : BufTy).Contents (Elt F) → (⟨S1x1x1, .f32⟩ : BufTy).Contents (Elt F)),
    unary main_v17 main_v18 (broadcastInDim S512x50x1 ![0, 1, 2] bcast_S1x1x1_S512x50x1_0_1_2 : (⟨S1x1x1, .f32⟩ : BufTy).Contents (Elt F) → (⟨S512x50x1, .f32⟩ : BufTy).Contents (Elt F)),
    binary main_v16 main_v18 main_v19 (addf : (⟨S512x50x1, .f32⟩ : BufTy).Contents (Elt F) → (⟨S512x50x1, .f32⟩ : BufTy).Contents (Elt F) → (⟨S512x50x1, .f32⟩ : BufTy).Contents (Elt F)),
    reshape main_v19 main_v20 rfl shapeCasts_S512x50x1_S512x50,
    binary main_arg4 main_v20 main_v21 (addf : (⟨S512x50, .f32⟩ : BufTy).Contents (Elt F) → (⟨S512x50, .f32⟩ : BufTy).Contents (Elt F) → (⟨S512x50, .f32⟩ : BufTy).Contents (Elt F)),
    nullary main_cst (constant S_ .f32 0x33D6BF95#32),
    unary main_cst main_v22 (broadcastInDim S512x1 ![] bcast_S_S512x1 : (⟨S_, .f32⟩ : BufTy).Contents (Elt F) → (⟨S512x1, .f32⟩ : BufTy).Contents (Elt F)),
    binary main_v22 main_v21 main_v23 ((fun a b => concatenate S512x51 1 [⟨S512x1, a⟩, ⟨S512x50, b⟩] concatenates_S512x1_S512x50_S512x51_d1) : (⟨S512x1, .f32⟩ : BufTy).Contents (Elt F) → (⟨S512x50, .f32⟩ : BufTy).Contents (Elt F) → (⟨S512x51, .f32⟩ : BufTy).Contents (Elt F)) ]

set_option maxRecDepth 2048 in
/-- @main is that straight line: the two functions' definitions unfolded at their calls, both sides are one chain
    of `hlo` steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., reshape_bufs_sub .., binary_bufs_sub .., nullary_bufs_sub .., unary_bufs_sub .., binary_bufs_sub ..⟩

/-! ## The composed term -/

section Term

variable (table : FVec F S2000x1024 .f32) (mentions : FVec F S512x1024 .f32) (pw : FVec F S512x50x64 .f32)
  (idx : IVec S512x50 32) (rough : FVec F S512x50 .f32) (W1 : FVec F S3136x1024 .f32) (b1 : FVec F S1024 .f32)
  (W2 : FVec F S1024x1 .f32) (b2 : FVec F S1 .f32)

/-- The index words, a negative one moved up by the table's 2000 rows. -/
def wrapped : IVec S512x50 32 :=
  select (cmpi .slt idx (broadcastInDim S512x50 ![] bcast_S_S512x50 (constantI S_ 32 0#32)))
    (addi idx (broadcastInDim S512x50 ![] bcast_S_S512x50 (constantI S_ 32 2000#32))) idx

/-- The antecedents' embeddings: one table row per (mention, slot). -/
def gathered : FVec F S512x50x1024 .f32 :=
  Host.gather gather_S2000x1024_S512x50x1_S512x50x1024_2_0_n_n_0_2_11024 table
    (broadcastInDim S512x50x1 ![0, 1] bcast_S512x50_S512x50x1_0_1 (wrapped idx))

/-- The mention's embedding repeated over the 50 slots. -/
def repeated : FVec F S512x50x1024 .f32 :=
  broadcastInDim S512x50x1024 ![0, 1, 2] bcast_S512x1x1024_S512x50x1024_0_1_2
    (broadcastInDim S512x1x1024 ![0, 2] bcast_S512x1024_S512x1x1024_0_2 mentions)

/-- The pair features: mention, antecedent, their product, the pairwise features, along the last axis. -/
def features : FVec F S512x50x3136 .f32 :=
  concatenate S512x50x3136 2
    [⟨S512x50x1024, repeated mentions⟩, ⟨S512x50x1024, gathered table idx⟩,
     ⟨S512x50x1024, mulf (repeated mentions) (gathered table idx)⟩, ⟨S512x50x64, pw⟩]
    concatenates_S512x50x1024_S512x50x1024_S512x50x1024_S512x50x64_S512x50x3136_d2

/-- The hidden layer's input: the features against `W1`, plus the bias. -/
def hiddenIn : FVec F S512x50x1024 .f32 :=
  addf (Host.dotGeneral dot_S512x50x3136_S3136x1024_S512x50x1024_2_0_01_1_n_n none (features table mentions pw idx) W1)
    (broadcastInDim S512x50x1024 ![0, 1, 2] bcast_S1x1x1024_S512x50x1024_0_1_2
      (broadcastInDim S1x1x1024 ![2] bcast_S1024_S1x1x1024_2 b1))

/-- The leaky rectifier, elementwise: `x` where `x ≥ 0`, else the slope literal times `x`. -/
def leaky (x : FVec F S512x50x1024 .f32) : FVec F S512x50x1024 .f32 :=
  select (cmpf .oge x (broadcastInDim S512x50x1024 ![] bcast_S_S512x50x1024 (constant S_ .f32 0x00000000#32))) x
    (mulf (broadcastInDim S512x50x1024 ![] bcast_S_S512x50x1024 (constant S_ .f32 0x3C23D70A#32)) x)

/-- The fine scores: the rectified hidden layer against `W2`, plus its bias, the trailing unit axis dropped. -/
def fineScores : FVec F S512x50 .f32 :=
  shapeCast S512x50
    (addf (Host.dotGeneral dot_S512x50x1024_S1024x1_S512x50x1_2_0_01_1_n_n none (leaky (hiddenIn table mentions pw idx W1 b1)) W2)
      (broadcastInDim S512x50x1 ![0, 1, 2] bcast_S1x1x1_S512x50x1_0_1_2 (broadcastInDim S1x1x1 ![2] bcast_S1_S1x1x1_2 b2)))
    shapeCasts_S512x50x1_S512x50

/-- The result: the literal column in front of the rough scores plus the fine scores. -/
def refOut : FVec F S512x51 .f32 :=
  concatenate S512x51 1
    [⟨S512x1, broadcastInDim S512x1 ![] bcast_S_S512x1 (constant S_ .f32 0x33D6BF95#32)⟩,
     ⟨S512x50, addf rough (fineScores table mentions pw idx W1 b1 W2 b2)⟩]
    concatenates_S512x1_S512x50_S512x51_d1

end Term

/-! ## The fold at the result and at the arguments -/

attribute [local irreducible] Host.gather concatenate in
set_option maxRecDepth 8192 in
set_option maxHeartbeats 400000 in
/-- The fold at the result buffer is `refOut` of the arguments' contents, by computation on the operation list:
    the fold unrolled, each operation's result decides whether the buffer read is the one it writes, and the typed
    references' casts are the identity at these literal references. The gather and the concatenations stay
    folded meanwhile (the equation never looks inside them; the contractions are the float values' own, opaque here). -/
theorem out_eq (V : Valuation τ sig (Elt F)) :
    after ops V (main_v23 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

/-- At the compiled mesh, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v23).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.RefRun

end
-- ==== Proof.RefDots.lean ====
/-
  The reference's two contractions read at an index, at the ideal values: each is the sum over the one contracted
  coordinate of the products of the operands' entries. The contraction index is identified with its one coordinate
  and the operand indices are read axis by axis.
-/
import proofs.«420652_j61607010894571_3_alg».proof.Proof.Gen.ReferenceIdeal
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- The features against `W1`: entry (b, a, h) is the sum over the 3136 features. -/
theorem dot1_apply (L : FVec Ideal S512x50x3136 .f32) (R : FVec Ideal S3136x1024 .f32)
    (b : Fin 512) (a : Fin 50) (h : Fin 1024) :
    Host.dotGeneral dot_S512x50x3136_S3136x1024_S512x50x1024_2_0_01_1_n_n none L R (ix3 b a h) = ∑ f : Fin 3136, L (ix3 b a f) * R (ix2 f h) := by
  show FloatOps.dotGeneral _ none _ L R (ix3 b a h) = _
  rw [Ideal.dotGeneral_apply, ← Equiv.sum_comp (contrEquiv1 dot_S512x50x3136_S3136x1024_S512x50x1024_2_0_01_1_n_n 3136 rfl rfl).symm]
  refine Finset.sum_congr rfl fun c _ => ?_
  have c3 := contrEquiv1_symm_val dot_S512x50x3136_S3136x1024_S512x50x1024_2_0_01_1_n_n 3136 rfl rfl c
  have l3 : (dot_S512x50x3136_S3136x1024_S512x50x1024_2_0_01_1_n_n).lhsIdx (ix3 b a h) ((contrEquiv1 _ 3136 rfl rfl).symm c) = ix3 b a c := by
    funext ax; apply Fin.ext
    match ax with
    | ⟨0, _⟩ => simp [DotDims.lhsIdx, dot_S512x50x3136_S3136x1024_S512x50x1024_2_0_01_1_n_n]; rfl
    | ⟨1, _⟩ => simp [DotDims.lhsIdx, dot_S512x50x3136_S3136x1024_S512x50x1024_2_0_01_1_n_n]; rfl
    | ⟨2, _⟩ => simp [DotDims.lhsIdx, dot_S512x50x3136_S3136x1024_S512x50x1024_2_0_01_1_n_n]; exact c3
  have r3 : (dot_S512x50x3136_S3136x1024_S512x50x1024_2_0_01_1_n_n).rhsIdx (ix3 b a h) ((contrEquiv1 _ 3136 rfl rfl).symm c) = ix2 c h := by
    funext ax; apply Fin.ext
    match ax with
    | ⟨0, _⟩ => simp [DotDims.rhsIdx, dot_S512x50x3136_S3136x1024_S512x50x1024_2_0_01_1_n_n]; exact c3
    | ⟨1, _⟩ => simp [DotDims.rhsIdx, dot_S512x50x3136_S3136x1024_S512x50x1024_2_0_01_1_n_n]; rfl
  rw [l3, r3]

/-- The hidden layer against `W2`: entry (b, a, 0) is the sum over the 1024 hidden units. -/
theorem dot2_apply (L : FVec Ideal S512x50x1024 .f32) (R : FVec Ideal S1024x1 .f32) (b : Fin 512) (a : Fin 50) :
    Host.dotGeneral dot_S512x50x1024_S1024x1_S512x50x1_2_0_01_1_n_n none L R (ix3 b a (0 : Fin 1)) = ∑ h : Fin 1024, L (ix3 b a h) * R (ix2 h (0 : Fin 1)) := by
  show FloatOps.dotGeneral _ none _ L R (ix3 b a (0 : Fin 1)) = _
  rw [Ideal.dotGeneral_apply, ← Equiv.sum_comp (contrEquiv1 dot_S512x50x1024_S1024x1_S512x50x1_2_0_01_1_n_n 1024 rfl rfl).symm]
  refine Finset.sum_congr rfl fun c _ => ?_
  have c3 := contrEquiv1_symm_val dot_S512x50x1024_S1024x1_S512x50x1_2_0_01_1_n_n 1024 rfl rfl c
  have l3 : (dot_S512x50x1024_S1024x1_S512x50x1_2_0_01_1_n_n).lhsIdx (ix3 b a (0 : Fin 1)) ((contrEquiv1 _ 1024 rfl rfl).symm c) = ix3 b a c := by
    funext ax; apply Fin.ext
    match ax with
    | ⟨0, _⟩ => simp [DotDims.lhsIdx, dot_S512x50x1024_S1024x1_S512x50x1_2_0_01_1_n_n]; rfl
    | ⟨1, _⟩ => simp [DotDims.lhsIdx, dot_S512x50x1024_S1024x1_S512x50x1_2_0_01_1_n_n]; rfl
    | ⟨2, _⟩ => simp [DotDims.lhsIdx, dot_S512x50x1024_S1024x1_S512x50x1_2_0_01_1_n_n]; exact c3
  have r3 : (dot_S512x50x1024_S1024x1_S512x50x1_2_0_01_1_n_n).rhsIdx (ix3 b a (0 : Fin 1)) ((contrEquiv1 _ 1024 rfl rfl).symm c) = ix2 c (0 : Fin 1) := by
    funext ax; apply Fin.ext
    match ax with
    | ⟨0, _⟩ => simp [DotDims.rhsIdx, dot_S512x50x1024_S1024x1_S512x50x1_2_0_01_1_n_n]; exact c3
    | ⟨1, _⟩ => simp [DotDims.rhsIdx, dot_S512x50x1024_S1024x1_S512x50x1_2_0_01_1_n_n]
  rw [l3, r3]

end Cert.ReferenceIdeal.RefValue

end
-- ==== Proof.RefGather.lean ====
/-
  The reference's gather read at an index: the operand has rank 2, axis 0 collapsed and addressed by the start
  index, axis 1 the offset axis; so result entry (b, a, e) is the operand at (the start word of slot (b, a) read as a
  signed integer and clamped into [0, 1999], e).
-/
import proofs.«420652_j61607010894571_3_alg».proof.Proof.Gen.ReferenceIdeal
import proofs.«420652_j61607010894571_3_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx

theorem gather_apply {α : Type} (x : S2000x1024.Idx → α) (i : IVec S512x50x1 32) (b : Fin 512) (a : Fin 50) (e : Fin 1024) :
    Host.gather gather_S2000x1024_S512x50x1_S512x50x1024_2_0_n_n_0_2_11024 x i (ix3 b a e)
      = x (ix2 (Cert.PairScores.row (i (ix3 b a (0 : Fin 1)))) e) := by
  unfold Host.gather
  congr 1
  funext ax
  refine Fin.ext ?_
  match ax with
  | ⟨0, _⟩ =>
    show (gather_S2000x1024_S512x50x1_S512x50x1024_2_0_n_n_0_2_11024).start (ix3 b a e) i 0 + (gather_S2000x1024_S512x50x1_S512x50x1024_2_0_n_n_0_2_11024).batchCoord (ix3 b a e) 0 + (gather_S2000x1024_S512x50x1_S512x50x1024_2_0_n_n_0_2_11024).offCoord (ix3 b a e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S2000x1024_S512x50x1_S512x50x1024_2_0_n_n_0_2_11024).startIndexMap from List.mem_singleton.mpr rfl)]
    have hsi : (gather_S2000x1024_S512x50x1_S512x50x1024_2_0_n_n_0_2_11024).siIdx (ix3 b a e) ⟨List.idxOf (0 : Fin 2) (gather_S2000x1024_S512x50x1_S512x50x1024_2_0_n_n_0_2_11024).startIndexMap,
        List.idxOf_lt_length_iff.2 (List.mem_singleton.mpr rfl)⟩ = ix3 b a (0 : Fin 1) := by
      funext c; refine Fin.ext ?_
      match c with
      | ⟨0, _⟩ => rfl
      | ⟨1, _⟩ => rfl
      | ⟨2, _⟩ => rfl
    rw [hsi]
    rfl
  | ⟨1, _⟩ =>
    show (gather_S2000x1024_S512x50x1_S512x50x1024_2_0_n_n_0_2_11024).start (ix3 b a e) i 1 + (gather_S2000x1024_S512x50x1_S512x50x1024_2_0_n_n_0_2_11024).batchCoord (ix3 b a e) 1 + (gather_S2000x1024_S512x50x1_S512x50x1024_2_0_n_n_0_2_11024).offCoord (ix3 b a e) 1 = e.val
    rw [GatherDims.batchCoord_eq_zero _ _ _ List.not_mem_nil]
    unfold GatherDims.start
    rw [dif_neg (show (1 : Fin 2) ∉ (gather_S2000x1024_S512x50x1_S512x50x1024_2_0_n_n_0_2_11024).startIndexMap by decide)]
    unfold GatherDims.offCoord
    rw [dif_pos (show (1 : Fin 2) ∈ (gather_S2000x1024_S512x50x1_S512x50x1024_2_0_n_n_0_2_11024).sKept by decide)]
    simp only [Nat.zero_add]
    rfl

end Cert.ReferenceIdeal.RefValue

end
-- ==== Proof.RefValue.lean ====
/-
  The reference's composed term is the specification's score function, at the ideal values, when no index word is
  negative. Read at result index (b, q): column 0 is the literal; column a + 1 is the rough score plus the fine
  score of slot a. The fine score is read operation by operation: the trailing unit axis dropped, the contraction
  with `W2` a sum over the hidden units, the rectifier pointwise, the contraction with `W1` a sum over the 3136
  features that splits along the four pieces of the feature vector, each piece read through the concatenation, the
  broadcasts read at their kept coordinates, and the gathered row the table's row the index word selects (a word
  that is not negative is not wrapped).
-/
import proofs.«420652_j61607010894571_3_alg».proof.Proof.RefRun
import proofs.«420652_j61607010894571_3_alg».proof.Proof.RefDots
import proofs.«420652_j61607010894571_3_alg».proof.Proof.RefGather
import proofs.«420652_j61607010894571_3_alg».proof.Proof.Spec
import Idealize.ShloMosaic.Lib.ValueIdx
import Idealize.ShloMosaic.Lib.Pipeline.Value
import Idealize.ShloMosaic.Lib.DynamicIndex
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## The re-indexings at an index -/

section Reindex
variable {α : Type}

/-- A [1] vector as [1, 1, 1] and then over [512, 50, 1]: its one entry everywhere. -/
theorem bias2_apply (v : S1.Idx → α) (b : Fin 512) (a : Fin 50) :
    broadcastInDim S512x50x1 ![0, 1, 2] bcast_S1x1x1_S512x50x1_0_1_2 (broadcastInDim S1x1x1 ![2] bcast_S1_S1x1x1_2 v)
        (ix3 b a (0 : Fin 1)) = v (ix1 (0 : Fin 1)) := by
  rw [broadcastInDim_apply _ _ _ _ (ix3 (0 : Fin 1) (0 : Fin 1) (0 : Fin 1)) (fun ax => by
        match ax with
        | ⟨0, _⟩ => rfl
        | ⟨1, _⟩ => rfl
        | ⟨2, _⟩ => rfl),
    broadcastInDim_apply _ _ _ _ (ix1 (0 : Fin 1)) (fun ax => by
        match ax with
        | ⟨0, _⟩ => rfl)]

/-- A [1024] vector as [1, 1, 1024] and then over [512, 50, 1024]: entry `h` at every (b, a). -/
theorem bias1_apply (v : S1024.Idx → α) (b : Fin 512) (a : Fin 50) (h : Fin 1024) :
    broadcastInDim S512x50x1024 ![0, 1, 2] bcast_S1x1x1024_S512x50x1024_0_1_2
        (broadcastInDim S1x1x1024 ![2] bcast_S1024_S1x1x1024_2 v) (ix3 b a h) = v (ix1 h) := by
  rw [broadcastInDim_apply _ _ _ _ (ix3 (0 : Fin 1) (0 : Fin 1) h) (fun ax => by
        match ax with
        | ⟨0, _⟩ => rfl
        | ⟨1, _⟩ => rfl
        | ⟨2, _⟩ => rfl),
    broadcastInDim_apply _ _ _ _ (ix1 h) (fun ax => by
        match ax with
        | ⟨0, _⟩ => rfl)]

/-- A [512, 1024] array as [512, 1, 1024] and then over the 50 slots: row `b` at every slot. -/
theorem repeat_apply (v : S512x1024.Idx → α) (b : Fin 512) (a : Fin 50) (e : Fin 1024) :
    broadcastInDim S512x50x1024 ![0, 1, 2] bcast_S512x1x1024_S512x50x1024_0_1_2
        (broadcastInDim S512x1x1024 ![0, 2] bcast_S512x1024_S512x1x1024_0_2 v) (ix3 b a e) = v (ix2 b e) := by
  rw [broadcastInDim_apply _ _ _ _ (ix3 b (0 : Fin 1) e) (fun ax => by
        match ax with
        | ⟨0, _⟩ => rfl
        | ⟨1, _⟩ => rfl
        | ⟨2, _⟩ => rfl),
    broadcastInDim_apply _ _ _ _ (ix2 b e) (fun ax => by
        match ax with
        | ⟨0, _⟩ => rfl
        | ⟨1, _⟩ => rfl)]

/-- A [512, 50] array with a trailing unit axis added. -/
theorem addUnit_apply (v : S512x50.Idx → α) (b : Fin 512) (a : Fin 50) :
    broadcastInDim S512x50x1 ![0, 1] bcast_S512x50_S512x50x1_0_1 v (ix3 b a (0 : Fin 1)) = v (ix2 b a) :=
  broadcastInDim_apply _ _ _ _ (ix2 b a) (fun ax => by
    match ax with
    | ⟨0, _⟩ => rfl
    | ⟨1, _⟩ => rfl)

/-- A [512, 50, 1] array with its trailing unit axis dropped. -/
theorem dropUnit_apply (v : S512x50x1.Idx → α) (b : Fin 512) (a : Fin 50) :
    shapeCast S512x50 v shapeCasts_S512x50x1_S512x50 (ix2 b a) = v (ix3 b a (0 : Fin 1)) := by
  refine shapeCast_apply v _ (ix2 b a) (ix3 b a (0 : Fin 1)) ?_
  rw [Shape.rowMajor_val_three, Shape.rowMajor_val_two]
  show (b.val * 50 + a.val) * 1 + 0 = b.val * 50 + a.val
  omega

/-! The four-piece concatenation along the last axis, read in each piece. -/

theorem cat4_apply0 (x0 x1 x2 : S512x50x1024.Idx → α) (x3 : S512x50x64.Idx → α) (b : Fin 512) (a : Fin 50) (e : Fin 1024) :
    concatenate S512x50x3136 2 [⟨S512x50x1024, x0⟩, ⟨S512x50x1024, x1⟩, ⟨S512x50x1024, x2⟩, ⟨S512x50x64, x3⟩]
        concatenates_S512x50x1024_S512x50x1024_S512x50x1024_S512x50x64_S512x50x3136_d2 (ix3 b a (⟨e.val, by omega⟩ : Fin 3136)) = x0 (ix3 b a e) := by
  refine concatenate_apply_piece (t := S512x50x3136) 2
    [⟨S512x50x1024, x0⟩, ⟨S512x50x1024, x1⟩, ⟨S512x50x1024, x2⟩, ⟨S512x50x64, x3⟩] concatenates_S512x50x1024_S512x50x1024_S512x50x1024_S512x50x64_S512x50x3136_d2
    (ix3 b a (⟨e.val, by omega⟩ : Fin 3136)) 0 (show 0 < 4 by omega) S512x50x1024 x0 rfl rfl 0 rfl (ix3 b a e) ?_ ?_
  · intro ax hax
    match ax with
    | ⟨0, _⟩ => rfl
    | ⟨1, _⟩ => rfl
    | ⟨2, _⟩ => exact absurd rfl hax
  · exact Nat.zero_add _

theorem cat4_apply1 (x0 x1 x2 : S512x50x1024.Idx → α) (x3 : S512x50x64.Idx → α) (b : Fin 512) (a : Fin 50) (e : Fin 1024) :
    concatenate S512x50x3136 2 [⟨S512x50x1024, x0⟩, ⟨S512x50x1024, x1⟩, ⟨S512x50x1024, x2⟩, ⟨S512x50x64, x3⟩]
        concatenates_S512x50x1024_S512x50x1024_S512x50x1024_S512x50x64_S512x50x3136_d2 (ix3 b a (⟨1024 + e.val, by omega⟩ : Fin 3136)) = x1 (ix3 b a e) := by
  refine concatenate_apply_piece (t := S512x50x3136) 2
    [⟨S512x50x1024, x0⟩, ⟨S512x50x1024, x1⟩, ⟨S512x50x1024, x2⟩, ⟨S512x50x64, x3⟩] concatenates_S512x50x1024_S512x50x1024_S512x50x1024_S512x50x64_S512x50x3136_d2
    (ix3 b a (⟨1024 + e.val, by omega⟩ : Fin 3136)) 1 (show 1 < 4 by omega) S512x50x1024 x1 rfl rfl 1024 rfl (ix3 b a e) ?_ ?_
  · intro ax hax
    match ax with
    | ⟨0, _⟩ => rfl
    | ⟨1, _⟩ => rfl
    | ⟨2, _⟩ => exact absurd rfl hax
  · rfl

theorem cat4_apply2 (x0 x1 x2 : S512x50x1024.Idx → α) (x3 : S512x50x64.Idx → α) (b : Fin 512) (a : Fin 50) (e : Fin 1024) :
    concatenate S512x50x3136 2 [⟨S512x50x1024, x0⟩, ⟨S512x50x1024, x1⟩, ⟨S512x50x1024, x2⟩, ⟨S512x50x64, x3⟩]
        concatenates_S512x50x1024_S512x50x1024_S512x50x1024_S512x50x64_S512x50x3136_d2 (ix3 b a (⟨2048 + e.val, by omega⟩ : Fin 3136)) = x2 (ix3 b a e) := by
  refine concatenate_apply_piece (t := S512x50x3136) 2
    [⟨S512x50x1024, x0⟩, ⟨S512x50x1024, x1⟩, ⟨S512x50x1024, x2⟩, ⟨S512x50x64, x3⟩] concatenates_S512x50x1024_S512x50x1024_S512x50x1024_S512x50x64_S512x50x3136_d2
    (ix3 b a (⟨2048 + e.val, by omega⟩ : Fin 3136)) 2 (show 2 < 4 by omega) S512x50x1024 x2 rfl rfl 2048 rfl (ix3 b a e) ?_ ?_
  · intro ax hax
    match ax with
    | ⟨0, _⟩ => rfl
    | ⟨1, _⟩ => rfl
    | ⟨2, _⟩ => exact absurd rfl hax
  · rfl

theorem cat4_apply3 (x0 x1 x2 : S512x50x1024.Idx → α) (x3 : S512x50x64.Idx → α) (b : Fin 512) (a : Fin 50) (e : Fin 64) :
    concatenate S512x50x3136 2 [⟨S512x50x1024, x0⟩, ⟨S512x50x1024, x1⟩, ⟨S512x50x1024, x2⟩, ⟨S512x50x64, x3⟩]
        concatenates_S512x50x1024_S512x50x1024_S512x50x1024_S512x50x64_S512x50x3136_d2 (ix3 b a (⟨3072 + e.val, by omega⟩ : Fin 3136)) = x3 (ix3 b a e) := by
  refine concatenate_apply_piece (t := S512x50x3136) 2
    [⟨S512x50x1024, x0⟩, ⟨S512x50x1024, x1⟩, ⟨S512x50x1024, x2⟩, ⟨S512x50x64, x3⟩] concatenates_S512x50x1024_S512x50x1024_S512x50x1024_S512x50x64_S512x50x3136_d2
    (ix3 b a (⟨3072 + e.val, by omega⟩ : Fin 3136)) 3 (show 3 < 4 by omega) S512x50x64 x3 rfl rfl 3072 rfl (ix3 b a e) ?_ ?_
  · intro ax hax
    match ax with
    | ⟨0, _⟩ => rfl
    | ⟨1, _⟩ => rfl
    | ⟨2, _⟩ => exact absurd rfl hax
  · rfl

/-- The two-piece concatenation along the columns: column 0 is the one-column piece. -/
theorem cat2_apply_zero (x0 : S512x1.Idx → α) (x1 : S512x50.Idx → α) (b : Fin 512) :
    concatenate S512x51 1 [⟨S512x1, x0⟩, ⟨S512x50, x1⟩] concatenates_S512x1_S512x50_S512x51_d1 (ix2 b (0 : Fin 51))
      = x0 (ix2 b (0 : Fin 1)) :=
  concatenate_pair_apply_left (t := S512x51) 1 x0 x1 _ _ rfl (ix2 b (0 : Fin 1)) (fun ax => by
    match ax with
    | ⟨0, _⟩ => rfl
    | ⟨1, _⟩ => rfl)

/-- The two-piece concatenation along the columns: column a + 1 is column a of the 50-column piece. -/
theorem cat2_apply_succ (x0 : S512x1.Idx → α) (x1 : S512x50.Idx → α) (b : Fin 512) (a : Fin 50) :
    concatenate S512x51 1 [⟨S512x1, x0⟩, ⟨S512x50, x1⟩] concatenates_S512x1_S512x50_S512x51_d1
        (ix2 b (⟨a.val + 1, by omega⟩ : Fin 51)) = x1 (ix2 b a) :=
  concatenate_pair_apply_right (t := S512x51) 1 x0 x1 _ _ rfl rfl (ix2 b a) (fun ax hax => by
    match ax with
    | ⟨0, _⟩ => rfl
    | ⟨1, _⟩ => exact absurd rfl hax) rfl

end Reindex

/-! ## The stages at an index -/

section Stages

variable (table : FVec Ideal S2000x1024 .f32) (mentions : FVec Ideal S512x1024 .f32) (pw : FVec Ideal S512x50x64 .f32)
  (idx : IVec S512x50 32) (rough : FVec Ideal S512x50 .f32) (W1 : FVec Ideal S3136x1024 .f32) (b1 : FVec Ideal S1024 .f32)
  (W2 : FVec Ideal S1024x1 .f32) (b2 : FVec Ideal S1 .f32)

/-- An index word that is not negative is not wrapped. -/
theorem wrapped_apply (hidx : ∀ i, 0 ≤ (idx i).toInt) (b : Fin 512) (a : Fin 50) :
    wrapped idx (ix2 b a) = idx (ix2 b a) :=
  select_slt_zero_of_nonneg idx _ _ (ix2 b a) (hidx _)

/-- The gathered row is the antecedent's embedding. -/
theorem gathered_apply (hidx : ∀ i, 0 ≤ (idx i).toInt) (b : Fin 512) (a : Fin 50) (e : Fin 1024) :
    gathered table idx (ix3 b a e) = Cert.PairScores.antecedent table idx b a e := by
  unfold gathered
  rw [gather_apply, addUnit_apply, wrapped_apply idx hidx]
  rfl

/-- The mention's row, at every slot. -/
theorem repeated_apply (b : Fin 512) (a : Fin 50) (e : Fin 1024) :
    repeated mentions (ix3 b a e) = mentions (ix2 b e) :=
  repeat_apply mentions b a e

/-- The hidden layer's input is the specification's, block by block. -/
theorem hiddenIn_apply (hidx : ∀ i, 0 ≤ (idx i).toInt) (b : Fin 512) (a : Fin 50) (h : Fin 1024) :
    hiddenIn table mentions pw idx W1 b1 (ix3 b a h) = Cert.PairScores.preact table mentions pw idx W1 b1 b a h := by
  unfold hiddenIn
  rw [addf_apply, dot1_apply, bias1_apply, Cert.PairScores.sum_split4]
  unfold Cert.PairScores.preact features
  congr 1
  congr 1
  · congr 1
    · congr 1
      · refine Finset.sum_congr rfl fun e _ => ?_
        rw [cat4_apply0, repeated_apply]
      · refine Finset.sum_congr rfl fun e _ => ?_
        rw [cat4_apply1, gathered_apply table idx hidx]
    · refine Finset.sum_congr rfl fun e _ => ?_
      rw [cat4_apply2, mulf_apply, repeated_apply, gathered_apply table idx hidx, mul_comm (mentions (ix2 b e))]
  · refine Finset.sum_congr rfl fun p _ => ?_
    rw [cat4_apply3]

/-- The rectifier, pointwise. -/
theorem leaky_apply (x : FVec Ideal S512x50x1024 .f32) (j : S512x50x1024.Idx) :
    leaky x j = Cert.PairScores.lrelu (x j) := rfl

/-- The fine score is the specification's. -/
theorem fineScores_apply (hidx : ∀ i, 0 ≤ (idx i).toInt) (b : Fin 512) (a : Fin 50) :
    fineScores table mentions pw idx W1 b1 W2 b2 (ix2 b a) = Cert.PairScores.fine table mentions pw idx W1 b1 W2 b2 b a := by
  unfold fineScores
  rw [dropUnit_apply, addf_apply, dot2_apply, bias2_apply]
  unfold Cert.PairScores.fine
  congr 1
  refine Finset.sum_congr rfl fun h _ => ?_
  rw [leaky_apply, hiddenIn_apply table mentions pw idx W1 b1 hidx]

end Stages

/-! ## The result -/

/-- With no negative index word the reference's composed term is the specification's scores. -/
theorem refOut_eq_scores (table : FVec Ideal S2000x1024 .f32) (mentions : FVec Ideal S512x1024 .f32)
    (pw : FVec Ideal S512x50x64 .f32) (idx : IVec S512x50 32) (rough : FVec Ideal S512x50 .f32)
    (W1 : FVec Ideal S3136x1024 .f32) (b1 : FVec Ideal S1024 .f32) (W2 : FVec Ideal S1024x1 .f32) (b2 : FVec Ideal S1 .f32)
    (hidx : ∀ i, 0 ≤ (idx i).toInt) :
    RefRun.refOut (F := Ideal) table mentions pw idx rough W1 b1 W2 b2
      = Cert.PairScores.scores table mentions pw idx rough W1 b1 W2 b2 := by
  funext j
  obtain ⟨b, q, rfl⟩ : ∃ (b : Fin 512) (q : Fin 51), j = ix2 b q := ⟨j 0, j 1, eq_ix2 j⟩
  by_cases hq : q.val = 0
  · obtain rfl : q = (0 : Fin 51) := Fin.ext hq
    rw [Cert.PairScores.scores_zero]
    unfold refOut
    rw [cat2_apply_zero]
    rfl
  · obtain ⟨a, rfl⟩ : ∃ a : Fin 50, q = (⟨a.val + 1, by omega⟩ : Fin 51) :=
      ⟨⟨q.val - 1, by omega⟩, Fin.ext (by show q.val = q.val - 1 + 1; omega)⟩
    rw [Cert.PairScores.scores_succ]
    unfold refOut
    rw [cat2_apply_succ, addf_apply, fineScores_apply table mentions pw idx W1 b1 W2 b2 hidx]

end Cert.ReferenceIdeal.RefValue

end
-- ==== Proof.lean ====
/-
  The certificate's claims. Both idealized programs end with the specification's `scores` of the nine argument arrays
  (Proof/Spec.lean) in their result buffer, on the extended reals:

  * the kernel, at every index word whatever: the tile's value (Proof/TileValue.lean) laid out over the 32 row
    blocks (Proof/KernelValue.lean), over the generated frame and value leg;
  * the reference, where every index word is non-negative as a signed integer — the precondition's last conjunct
    (Proof/PreIndex.lean) —: there jnp's wrap of a negative index is the identity and the gathered row is the clamped
    word's, as in the kernel (Proof/RefRun.lean, Proof/RefValue.lean).

  The 3136-term contraction with `W1` is regrouped along the four pieces of the feature vector, and the kernel's
  indicator-matrix product keeps the one table row it marks; both hold on the extended reals with no finiteness
  assumption, so the precondition's finiteness conjuncts are never opened. The ideal pass rewrote nothing, so
  `preserves` is trivial; the kernels' frames are the generated ones, and the reference's frame is its run with the
  result dropped.
-/
import proofs.«420652_j61607010894571_3_alg».proof.Defs
import proofs.«420652_j61607010894571_3_alg».proof.Proof.Gen.Kernel
import proofs.«420652_j61607010894571_3_alg».proof.Proof.Gen.Kernel.Skeleton
import proofs.«420652_j61607010894571_3_alg».proof.Proof.Gen.Kernel.Launch
import proofs.«420652_j61607010894571_3_alg».proof.Proof.Gen.Kernel.Points
import proofs.«420652_j61607010894571_3_alg».proof.Proof.Gen.Kernel.Frame
import proofs.«420652_j61607010894571_3_alg».proof.Proof.Gen.KernelIdeal
import proofs.«420652_j61607010894571_3_alg».proof.Proof.Gen.KernelIdeal.Skeleton
import proofs.«420652_j61607010894571_3_alg».proof.Proof.Gen.KernelIdeal.Launch
import proofs.«420652_j61607010894571_3_alg».proof.Proof.Gen.KernelIdeal.Points
import proofs.«420652_j61607010894571_3_alg».proof.Proof.Gen.KernelIdeal.Frame
import proofs.«420652_j61607010894571_3_alg».proof.Proof.Gen.KernelIdeal.Value
import proofs.«420652_j61607010894571_3_alg».proof.Proof.Gen.ReferenceIdeal
import proofs.«420652_j61607010894571_3_alg».proof.Proof.Gen.Pre_finite_inputs
import proofs.«420652_j61607010894571_3_alg».proof.Proof.KernelValue
import proofs.«420652_j61607010894571_3_alg».proof.Proof.PreIndex
import proofs.«420652_j61607010894571_3_alg».proof.Proof.RefRun
import proofs.«420652_j61607010894571_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end at the specification's scores: the kernel's unconditionally, the reference's because the
    precondition makes every index word non-negative. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [h0, h1, h2, h3, h4, h5, h6, h7, h8]
  exact Cert.ReferenceIdeal.RefValue.refOut_eq_scores _ _ _ _ _ _ _ _ _
    (fun i => Cert.PairScores.PreIndex.idx_nonneg _ _ _ _ _ _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
